-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn_part1 {F : FTy → Type} [FloatOps F] (main_arg2 : IVec S16x2048x2048 32) (main_v15 : IVec S_ 1) : IVec S_ 1 :=
  let main_c_6 : IVec S_ 32 := constantI S_ 32 3#32
  let main_v16 : IVec S16x2048x2048 32 := broadcastInDim S16x2048x2048 ![] bcast_S_S16x2048x2048 main_c_6
  let main_v17 : IVec S16x2048x2048 1 := cmpi .slt main_arg2 main_v16
  let main_c_7 : IVec S_ 1 := constantI S_ 1 1#1
  let main_v18 : IVec S_ 1 := (fun x v => Host.reduce IntOp.andi x v reducesTo_S16x2048x2048_S_d0_1_2 h_S_) main_v17 main_c_7
  let main_v19 : IVec S_ 1 := andi main_v15 main_v18
  main_v19

def fn {F : FTy → Type} [FloatOps F] (main_arg0 : FVec F S16x2048x2048 .f32) (main_arg1 : IVec S16x2048x2048 32) (main_arg2 : IVec S16x2048x2048 32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_c_0 : IVec S_ 32 := constantI S_ 32 0#32
  let main_v4 : IVec S16x2048x2048 32 := broadcastInDim S16x2048x2048 ![] bcast_S_S16x2048x2048 main_c_0
  let main_v5 : IVec S16x2048x2048 1 := cmpi .sge main_arg1 main_v4
  let main_c_1 : IVec S_ 1 := constantI S_ 1 1#1
  let main_v6 : IVec S_ 1 := (fun x v => Host.reduce IntOp.andi x v reducesTo_S16x2048x2048_S_d0_1_2 h_S_) main_v5 main_c_1
  let main_v7 : IVec S_ 1 := andi main_v3 main_v6
  let main_c_2 : IVec S_ 32 := constantI S_ 32 2#32
  let main_v8 : IVec S16x2048x2048 32 := broadcastInDim S16x2048x2048 ![] bcast_S_S16x2048x2048 main_c_2
  let main_v9 : IVec S16x2048x2048 1 := cmpi .slt main_arg1 main_v8
  let main_c_3 : IVec S_ 1 := constantI S_ 1 1#1
  let main_v10 : IVec S_ 1 := (fun x v => Host.reduce IntOp.andi x v reducesTo_S16x2048x2048_S_d0_1_2 h_S_) main_v9 main_c_3
  let main_v11 : IVec S_ 1 := andi main_v7 main_v10
  let main_c_4 : IVec S_ 32 := constantI S_ 32 0#32
  let main_v12 : IVec S16x2048x2048 32 := broadcastInDim S16x2048x2048 ![] bcast_S_S16x2048x2048 main_c_4
  let main_v13 : IVec S16x2048x2048 1 := cmpi .sge main_arg2 main_v12
  let main_c_5 : IVec S_ 1 := constantI S_ 1 1#1
  let main_v14 : IVec S_ 1 := (fun x v => Host.reduce IntOp.andi x v reducesTo_S16x2048x2048_S_d0_1_2 h_S_) main_v13 main_c_5
  let main_v15 : IVec S_ 1 := andi main_v11 main_v14
  fn_part1 (F := F) main_arg2 main_v15
-- ==== Kernel.lean ====
abbrev S16x2048x2048 : Shape := ⟨3, ![16, 2048, 2048]⟩
abbrev S128x128 : Shape := ⟨2, ![128, 128]⟩
abbrev S1x512x2048 : Shape := ⟨3, ![1, 512, 2048]⟩
abbrev S8x128 : Shape := ⟨2, ![8, 128]⟩
abbrev S512x2048 : Shape := ⟨2, ![512, 2048]⟩
abbrev S1x128 : Shape := ⟨2, ![1, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S16x8x128 : Shape := ⟨3, ![16, 8, 128]⟩
abbrev S16x1x128 : Shape := ⟨3, ![16, 1, 128]⟩
abbrev S16x128 : Shape := ⟨2, ![16, 128]⟩
abbrev S16x5 : Shape := ⟨2, ![16, 5]⟩
abbrev S_ : Shape := ⟨0, ![]⟩
abbrev S5 : Shape := ⟨1, ![5]⟩
abbrev S16x1 : Shape := ⟨2, ![16, 1]⟩
abbrev S16 : Shape := ⟨1, ![16]⟩
abbrev S6 : Shape := ⟨1, ![6]⟩

abbrev nBuf : Space → Nat
  | .hbm => 55
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .i32⟩
  | .hbm, ⟨2, _⟩ => ⟨S16x2048x2048, .i32⟩
  | .hbm, ⟨3, _⟩ => ⟨S128x128, .f32⟩
  | .hbm, ⟨4, _⟩ => ⟨S16x8x128, .f32⟩
  | .hbm, ⟨5, _⟩ => ⟨S16x1x128, .f32⟩
  | .hbm, ⟨6, _⟩ => ⟨S16x128, .f32⟩
  | .hbm, ⟨7, _⟩ => ⟨S16x5, .f32⟩
  | .hbm, ⟨8, _⟩ => ⟨S_, .f32⟩
  | .hbm, ⟨9, _⟩ => ⟨S5, .f32⟩
  | .hbm, ⟨10, _⟩ => ⟨S16x5, .f32⟩
  | .hbm, ⟨11, _⟩ => ⟨S_, .f32⟩
  | .hbm, ⟨12, _⟩ => ⟨S5, .f32⟩
  | .hbm, ⟨13, _⟩ => ⟨S16x1, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S6, .f32⟩
  | .hbm, ⟨30, _⟩ => ⟨S1, .f32⟩
  | .hbm, ⟨31, _⟩ => ⟨S6, .f32⟩
  | .hbm, ⟨32, _⟩ => ⟨S_, .f32⟩
  | .hbm, ⟨33, _⟩ => ⟨S6, .f32⟩
  | .hbm, ⟨34, _⟩ => ⟨S6, .i1⟩
  | .hbm, ⟨35, _⟩ => ⟨S6, .f32⟩
  | .hbm, ⟨36, _⟩ => ⟨S_, .f32⟩
  | .hbm, ⟨37, _⟩ => ⟨S6, .f32⟩
  | .hbm, ⟨38, _⟩ => ⟨S6, .f32⟩
  | .hbm, ⟨39, _⟩ => ⟨S_, .f32⟩
  | .hbm, ⟨40, _⟩ => ⟨S_, .f32⟩
  | .hbm, ⟨41, _⟩ => ⟨S6, .f32⟩
  | .hbm, ⟨42, _⟩ => ⟨S6, .f32⟩
  | .hbm, ⟨43, _⟩ => ⟨S6, .f32⟩
  | .hbm, ⟨44, _⟩ => ⟨S_, .f32⟩
  | .hbm, ⟨45, _⟩ => ⟨S_, .f32⟩
  | .hbm, ⟨46, _⟩ => ⟨S6, .f32⟩
  | .hbm, ⟨47, _⟩ => ⟨S6, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .i32⟩
  | .local _ .vmem, ⟨3, _⟩ => ⟨S1x512x2048, .i32⟩
  | .local _ .vmem, ⟨4, _⟩ => ⟨S1x512x2048, .i32⟩
  | .local _ .vmem, ⟨5, _⟩ => ⟨S1x512x2048, .i32⟩
  | .local _ .vmem, ⟨6, _⟩ => ⟨S8x128, .f32⟩
  | .local _ .vmem, ⟨7, _⟩ => ⟨S8x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  iota_S1x128_d1_w32 : S1x128.Iotas .tc 32 [1]
  iota_S8x128_d0_w32 : S8x128.Iotas .tc 32 [0]
  natLt_1_32 : 1 < 32
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  inpos_S1x1_p0_0 : ∀ a, (![0, 0] : Fin 2 → Nat) a < S1x1.size a
  shapeCasts_S1x128_S1x128 : S1x128.ShapeCasts S1x128
  broadcasts_S1x128_S8x128 : S1x128.Broadcasts S8x128
  shapeCasts_S8x128_S8x128 : S8x128.ShapeCasts S8x128
  shapeCasts_S128x128_S16x8x128 : S128x128.ShapeCasts S16x8x128
  slices_S16x8x128_S16x1x128_0_0_0 : S16x8x128.Slices ![0, 0, 0] S16x1x128
  shapeCasts_S16x1x128_S16x128 : S16x1x128.ShapeCasts S16x128
  slices_S16x128_S16x5_0_0 : S16x128.Slices ![0, 0] S16x5
  reducesTo_S16x5_S5_d0 : S16x5.ReducesTo [0] S5
  h_S_ : 0 < S_.numel
  slices_S16x128_S16x5_0_5 : S16x128.Slices ![0, 5] S16x5
  slices_S16x128_S16x1_0_10 : S16x128.Slices ![0, 10] S16x1
  shapeCasts_S16x1_S16 : S16x1.ShapeCasts S16
  reducesTo_S16_S_d0 : S16.ReducesTo [0] S_
  reducesTo_S5_S_d0 : S5.ReducesTo [0] S_
  shapeCasts_S_S1 : S_.ShapeCasts S1
  concatenates_S5_S1_S6_d0 : Shape.Concatenates [S5, S1] S6 0
  bcast_S_S6 : S_.BroadcastsInDim S6 (![] : Fin 0 → Fin S6.rank)
  reducesTo_S6_S_d0 : S6.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x2048x2048.size a
  hwx0_1 : ∀ i : grid0.Coords, EltTy.bits .i32 = 32 ∨ (Rect.block (s := S16x2048x2048) S1x512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .i32 = 32 ∨ (Rect.block (s := S16x2048x2048) S1x512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S67108864 : Shape := ⟨1, ![67108864]⟩
abbrev S6 : Shape := ⟨1, ![6]⟩
abbrev S67108864x1 : Shape := ⟨2, ![67108864, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .i32⟩
  | .hbm, ⟨2, _⟩ => ⟨S16x2048x2048, .i32⟩
  | .hbm, ⟨3, _⟩ => ⟨S_, .i32⟩
  | .hbm, ⟨4, _⟩ => ⟨S16x2048x2048, .i32⟩
  | .hbm, ⟨5, _⟩ => ⟨S16x2048x2048, .i32⟩
  | .hbm, ⟨6, _⟩ => ⟨S16x2048x2048, .i32⟩
  | .hbm, ⟨7, _⟩ => ⟨S67108864, .i32⟩
  | .hbm, ⟨8, _⟩ => ⟨S67108864, .f32⟩
  | .hbm, ⟨9, _⟩ => ⟨S_, .f32⟩
  | .hbm, ⟨10, _⟩ => ⟨S67108864, .f32⟩
  | .hbm, ⟨11, _⟩ => ⟨S_, .f32⟩
  | .hbm, ⟨12, _⟩ => ⟨S6, .f32⟩
  | .hbm, ⟨13, _⟩ => ⟨S67108864x1, .i32⟩
  | .hbm, ⟨14, _⟩ => ⟨S6, .f32⟩
  | .hbm, ⟨15, _⟩ => ⟨S_, .f32⟩
  | .hbm, ⟨16, _⟩ => ⟨S6, .f32⟩
  | .hbm, ⟨17, _⟩ => ⟨S67108864x1, .i32⟩
  | .hbm, ⟨18, _⟩ => ⟨S6, .f32⟩
  | .hbm, ⟨19, _⟩ => ⟨S_, .f32⟩
  | .hbm, ⟨20, _⟩ => ⟨S6, .f32⟩
  | .hbm, ⟨21, _⟩ => ⟨S6, .i1⟩
  | .hbm, ⟨22, _⟩ => ⟨S6, .f32⟩
  | .hbm, ⟨23, _⟩ => ⟨S_, .f32⟩
  | .hbm, ⟨24, _⟩ => ⟨S6, .f32⟩
  | .hbm, ⟨25, _⟩ => ⟨S6, .f32⟩
  | .hbm, ⟨26, _⟩ => ⟨S_, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S6, .f32⟩
  | .hbm, ⟨31, _⟩ => ⟨S_, .f32⟩
  | .hbm, ⟨32, _⟩ => ⟨S_, .f32⟩
  | .hbm, ⟨33, _⟩ => ⟨S6, .f32⟩
  | .hbm, ⟨34, _⟩ => ⟨S6, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  shapeCasts_S16x2048x2048_S67108864 : S16x2048x2048.ShapeCasts S67108864
  bcast_S_S67108864 : S_.BroadcastsInDim S67108864 (![] : Fin 0 → Fin S67108864.rank)
  bcast_S_S6 : S_.BroadcastsInDim S6 (![] : Fin 0 → Fin S6.rank)
  bcast_S67108864_S67108864x1_0 : S67108864.BroadcastsInDim S67108864x1 (![0] : Fin 1 → Fin S67108864x1.rank)
  reducesTo_S6_S_d0 : S6.ReducesTo [0] S_
  h_S_ : 0 < S_.numel
  scatter_S6_S67108864x1_S67108864_n_0_0_1_wf : ScatterDims.WF S6 S67108864x1 S67108864 [] [0] [0] 1

variable [Facts₀]

def scatter_S6_S67108864x1_S67108864_n_0_0_1 : ScatterDims S6 S67108864x1 S67108864 where
  updateWindowDims := []
  insertedWindowDims := [0]
  scatterDimsToOperandDims := [0]
  indexVectorDim := 1
  wf := scatter_S6_S67108864x1_S67108864_n_0_0_1_wf

class Facts : Prop extends Facts₀ where

variable [Facts]
-- ==== Proof.Spec.lean ====
import Idealize.ShloMosaic.PureOps.Ideal
import Idealize.ShloMosaic.PureOps.Contract
import Idealize.ShloMosaic.Lib.ValueIdx

/-!
# The Dice-loss buckets: what both programs compute

Every element `i` of the three input arrays falls into the bucket `seg i = target i * 3 + weighted_target i`
(a 32-bit word). The loss is a function of two vectors over the six buckets `0 … 5`: the number of elements in each
bucket and the sum of `pred` over each bucket. This module states those two vectors (`cnt`, `psum`), the sum of all of
`pred` (`total`), the same sums arranged by batch and by tile of 512 rows (`tileSum`, `batchSum`), and the function
of the two vectors both programs end with (`tailFn`).
-/

noncomputable section

namespace Cert.Dice

open Idealize.ShloMosaic Idealize.ShloMosaic.ValueIdx

abbrev SIn : Shape := ⟨3, ![16, 2048, 2048]⟩
abbrev S6 : Shape := ⟨1, ![6]⟩
abbrev S0 : Shape := ⟨0, ![]⟩

/-- The bucket of element `i`: three times its class plus its weight index, in 32-bit arithmetic. -/
def seg (x1 x2 : IVec SIn 32) (i : SIn.Idx) : BitVec 32 := x1 i * 3#32 + x2 i

/-- How many elements fall into bucket `b`. -/
def cnt (x1 x2 : IVec SIn 32) (b : BitVec 32) : EReal := ∑ i : SIn.Idx, if seg x1 x2 i = b then (1 : EReal) else 0

/-- The sum of `x0` over the elements of bucket `b`. -/
def psum (x0 : SIn.Idx → EReal) (x1 x2 : IVec SIn 32) (b : BitVec 32) : EReal :=
  ∑ i : SIn.Idx, if seg x1 x2 i = b then x0 i else 0

/-- The sum of `x0` over all elements. -/
def total (x0 : SIn.Idx → EReal) : EReal := ∑ i : SIn.Idx, x0 i

/-- Row `r` of the `j`-th tile of 512 rows. -/
def rowOf (j : Fin 4) (r : Fin 512) : Fin 2048 := ⟨512 * j.val + r.val, by omega⟩

/-- The sum of `f` over tile `j` of batch `i`: lanes first, then rows. -/
def tileSum (f : SIn.Idx → EReal) (i : Fin 16) (j : Fin 4) : EReal :=
  ∑ r : Fin 512, ∑ c : Fin 2048, f (ix3 i (rowOf j r) c)

/-- The sum of `f` over batch `i`: its four tiles. -/
def batchSum (f : SIn.Idx → EReal) (i : Fin 16) : EReal := ∑ j : Fin 4, tileSum f i j

/-- The indicator of bucket `b`. -/
def ind (x1 x2 : IVec SIn 32) (b : BitVec 32) (i : SIn.Idx) : EReal := if seg x1 x2 i = b then 1 else 0

/-- `x0` on bucket `b`, zero elsewhere. -/
def pick (x0 : SIn.Idx → EReal) (x1 x2 : IVec SIn 32) (b : BitVec 32) (i : SIn.Idx) : EReal :=
  if seg x1 x2 i = b then x0 i else 0

theorem cnt_eq (x1 x2 : IVec SIn 32) (b : BitVec 32) : cnt x1 x2 b = ∑ i : SIn.Idx, ind x1 x2 b i := rfl
theorem psum_eq (x0 : SIn.Idx → EReal) (x1 x2 : IVec SIn 32) (b : BitVec 32) :
    psum x0 x1 x2 b = ∑ i : SIn.Idx, pick x0 x1 x2 b i := rfl

/-! ## The function of the two bucket vectors both programs end with -/

section Tail
variable {F : FTy → Type} [FloatOps F]

/-- `1 / n²` on the non-empty buckets, `0` on the empty ones. -/
def invSq (hb : S0.BroadcastsInDim S6 (![] : Fin 0 → Fin S6.rank)) (counts : FVec F S6 .f32) : FVec F S6 .f32 :=
  select (cmpf .ogt counts (broadcastInDim S6 ![] hb (constant S0 .f32 0x00000000#32)))
    (Host.divf (broadcastInDim S6 ![] hb (constant S0 .f32 0x3F800000#32)) (mulf counts counts))
    (broadcastInDim S6 ![] hb (id (constant S0 .f32 0x00000000#32)))

/-- `1 - 2 · (∑ psum/n²) / (∑ (psum + n)/n²)`. -/
def tailFn (hb : S0.BroadcastsInDim S6 (![] : Fin 0 → Fin S6.rank)) (hr : S6.ReducesTo [0] S0) (h0 : 0 < S0.numel)
    (counts psums : FVec F S6 .f32) : FVec F S0 .f32 :=
  subf (constant S0 .f32 0x3F800000#32)
    (Host.divf
      (mulf (constant S0 .f32 0x40000000#32)
        (Host.reduceAdd (mulf psums (invSq hb counts)) (constant S0 .f32 0x00000000#32) hr h0))
      (Host.reduceAdd (mulf (addf psums counts) (invSq hb counts)) (constant S0 .f32 0x00000000#32) hr h0))

end Tail

end Cert.Dice

end
-- ==== Proof.KBody.lean ====
import proofs.«420969_j46729244180574_2_alg».proof.Proof.Gen.KernelIdeal.Skeleton
import proofs.«420969_j46729244180574_2_alg».proof.Proof.Spec
import Idealize.ShloMosaic.Lib.Pipeline.Value
import Idealize.ShloMosaic.Lib.ValueLayout
import Idealize.ShloMosaic.PureOps.Ideal.Laws
import Idealize.ShloMosaic.Lib.StableHlo.Predicate

/-!
# What the kernel body adds to its output block at one grid point

At a grid point the body reads a tile of 512 rows of the three inputs, forms the bucket id of every element, and
for each of the buckets `0 … 4` sums over the tile the indicator of the bucket and `pred` on the bucket; it also sums
all of `pred`. The eleven numbers are laid on the lanes `0 … 10` of a vector of 128 lanes (lane `b` the count of bucket
`b`, lane `5 + b` its sum, lane `10` the whole sum), the vector is laid on row `0` of an `8 × 128` block and zero on the
other rows, and the block is added to what the output block held.
-/

noncomputable section

namespace Cert.KernelIdeal.Body

open Idealize.ShloMosaic Idealize.ShloMosaic.ValueIdx Cert.KernelIdeal Cert.KernelIdeal.Gen Cert.Dice

section AnyF
variable {F : FTy → Type} [FloatOps F]

/-- The sum of a whole tile: along the lanes, then along the rows. -/
def redAll (v : FVec F S512x2048 .f32) : F .f32 :=
  extractAt ![0, 0]
    (shapeCast S1x1
      (multiReduction .add [0] S1
        (shapeCast S512x1 (multiReduction .add [1] S512 v 0x00000000#32 reduces_S512x2048_S512 (.inl rfl) rfl)
          shapeCasts_S512_S512x1)
        0x00000000#32 reduces_S512x1_S1 (.inl rfl) rfl)
      shapeCasts_S1_S1x1)
    inpos_S1x1_p0_0

/-- Where the tile's bucket ids equal `b`. -/
def maskOf (v11 : IVec S512x2048 32) (b : BitVec 32) : IVec S512x2048 1 := cmpi .eq v11 (broadcast S512x2048 b)

/-- The tile's count of bucket `b`. -/
def cntS (v11 : IVec S512x2048 32) (b : BitVec 32) : F .f32 :=
  redAll (select (maskOf v11 b) (broadcast S512x2048 (Scalar.ofBits .f32 0x3F800000#32))
    (broadcast S512x2048 (Scalar.ofBits .f32 0x00000000#32)))

/-- The tile's sum of `pred` over bucket `b`. -/
def psS (v4 : FVec F S512x2048 .f32) (v11 : IVec S512x2048 32) (b : BitVec 32) : F .f32 :=
  redAll (select (maskOf v11 b) v4 (broadcast S512x2048 (Scalar.ofBits .f32 0x00000000#32)))

/-- The lane numbers `0 … 127`. -/
def lanes : IVec S1x128 32 := iota .tc S1x128 32 [1] iota_S1x128_d1_w32

/-- One on lane `k`, zero on the others. -/
def deltaL (k : BitVec 32) : FVec F S1x128 .f32 :=
  sitofp .f32 (extui 32 (cmpi .eq lanes (broadcast S1x128 k)) natLt_1_32)

/-- The number `s` on lane `k`. -/
def term (s : F .f32) (k : BitVec 32) : FVec F S1x128 .f32 := mulf (broadcast S1x128 s) (deltaL k)

/-- The eleven numbers of a tile on their lanes. -/
def laneVec (v4 : FVec F S512x2048 .f32) (v11 : IVec S512x2048 32) : FVec F S1x128 .f32 :=
  addf (addf (addf (addf (addf (addf (addf (addf (addf (addf (addf
    (broadcast S1x128 (Scalar.ofBits .f32 0x00000000#32))
    (term (cntS v11 0#32) 0#32)) (term (psS v4 v11 0#32) 5#32))
    (term (cntS v11 1#32) 1#32)) (term (psS v4 v11 1#32) 6#32))
    (term (cntS v11 2#32) 2#32)) (term (psS v4 v11 2#32) 7#32))
    (term (cntS v11 3#32) 3#32)) (term (psS v4 v11 3#32) 8#32))
    (term (cntS v11 4#32) 4#32)) (term (psS v4 v11 4#32) 9#32))
    (term (redAll v4) 10#32)

/-- What the body's accumulating store writes: the output block's contents `xo` plus the tile's lane vector on row 0. -/
def payAcc (x0 : Vec F S1x512x2048 .f32) (x1 x2 : Vec F S1x512x2048 .i32) (xo : Vec F S8x128 .f32) : FVec F S8x128 .f32 :=
  k0_pay1 (k0_pay3 x0) lanes k0_pay5
    (k0_pay17 (k0_pay4 x1 x2) lanes
      (k0_pay12 (k0_pay3 x0) (k0_pay4 x1 x2) lanes
        (k0_pay10 (k0_pay3 x0) (k0_pay4 x1 x2) lanes k0_pay6 (k0_pay8 x1 x2) (k0_pay9 x0 x1 x2))
        k0_pay11)
      (k0_pay14 (k0_pay4 x1 x2))
      (k0_pay15 (k0_pay3 x0) (k0_pay4 x1 x2)))
    (k0_pay18 (k0_pay3 x0) (k0_pay4 x1 x2) lanes)
    xo

/-- The accumulating store, spelt out. -/
theorem payAcc_eq (x0 : Vec F S1x512x2048 .f32) (x1 x2 : Vec F S1x512x2048 .i32) (xo : Vec F S8x128 .f32) :
    payAcc x0 x1 x2 xo
      = addf (shapeCast S8x128 xo shapeCasts_S8x128_S8x128)
          (mulf (broadcastTo S8x128 (shapeCast S1x128 (laneVec (k0_pay3 x0) (k0_pay4 x1 x2)) shapeCasts_S1x128_S1x128)
            broadcasts_S1x128_S8x128) k0_pay5) := by
  unfold payAcc k0_pay1 k0_pay17 k0_pay12 k0_pay10 k0_pay18 k0_pay8 k0_pay9 k0_pay14 k0_pay15 k0_pay6 k0_pay11
    k0_pay7 k0_pay13 k0_pay16 laneVec term cntS psS redAll maskOf deltaL
  rfl

end AnyF

section AtIdeal

open Idealize.ShloMosaic.StableHlo.Predicate in
theorem cmpi_eq_one {a b : BitVec 32} : IntOp.cmpi .eq a b = 1#1 ↔ a = b := cmpi_eq_iff

/-- The literal `1.0` denotes `1`. -/
theorem ofBits_one : Ideal.ofBits .f32 0x3F800000#32 = 1 := by
  simp [Ideal.ofBits, Ideal.ieee, -EReal.coe_mul]; norm_num

theorem lift_rows (h : S512x1.Reduces [0] S1) (k : Fin (S512x1.size 0)) :
    h.lift (ix1 (0 : Fin 1)) k = ix2 (⟨k.val, k.isLt⟩ : Fin 512) (0 : Fin 1) := by
  funext c; apply Fin.ext
  fin_cases c <;> rfl

theorem lift_lanes (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- A row's sum along the lanes. -/
theorem lanesSum (v : FVec Ideal S512x2048 .f32) (r : Fin 512) :
    multiReduction .add [1] S512 v 0x00000000#32 reduces_S512x2048_S512 (.inl rfl) rfl (ix1 r)
      = ∑ c : Fin 2048, v (ix2 r c) :=
  (Ideal.multiReduction_add_single v _ reduces_S512x2048_S512 _ _ (ix1 r)).trans
    (Finset.sum_congr rfl fun c _ => congrArg v (lift_lanes _ r c))

/-- The sum of a column of 512 row sums. -/
theorem rowsSum (w : FVec Ideal S512 .f32) :
    multiReduction .add [0] S1 (shapeCast S512x1 w shapeCasts_S512_S512x1) 0x00000000#32 reduces_S512x1_S1 (.inl rfl) rfl
        (ix1 (0 : Fin 1))
      = ∑ r : Fin 512, w (ix1 r) :=
  (Ideal.multiReduction_add_single _ _ reduces_S512x1_S1 _ _ (ix1 (0 : Fin 1))).trans
    (Finset.sum_congr rfl fun k _ =>
      (congrArg (shapeCast S512x1 w shapeCasts_S512_S512x1) (lift_rows _ k)).trans
        (shapeCast_apply w _ _ (ix1 (⟨k.val, k.isLt⟩ : Fin 512)) (by
          rw [Shape.rowMajor_val_two, Shape.rowMajor_val_one]
          show k.val = k.val * 1 + 0
          omega)))

/-- The sum of a whole tile is the double sum of its entries, rows outside. -/
theorem redAll_eq (v : FVec Ideal S512x2048 .f32) : redAll v = ∑ r : Fin 512, ∑ c : Fin 2048, v (ix2 r c) := by
  unfold redAll extractAt
  have e : (fun a => (⟨(![0, 0] : Fin 2 → Nat) a, inpos_S1x1_p0_0 a⟩ : Fin (S1x1.size a))) = ix2 (0 : Fin 1) (0 : Fin 1) := by
    funext a; fin_cases a <;> rfl
  rw [e, shapeCast_a_1a_apply]
  refine (rowsSum _).trans ?_
  exact Finset.sum_congr rfl fun r _ => lanesSum v r

/-- The tile's count of bucket `b`: the number of its entries whose bucket id is `b`. -/
theorem cntS_eq (v11 : IVec S512x2048 32) (b : BitVec 32) :
    cntS (F := Ideal) v11 b = ∑ r : Fin 512, ∑ c : Fin 2048, if v11 (ix2 r c) = b then (1 : EReal) else 0 := by
  unfold cntS
  rw [redAll_eq]
  refine Finset.sum_congr rfl fun r _ => Finset.sum_congr rfl fun c _ => ?_
  show (if IntOp.cmpi .eq (v11 (ix2 r c)) b = 1#1 then Ideal.ofBits .f32 0x3F800000#32 else Ideal.ofBits .f32 0x00000000#32) = _
  rw [ofBits_one, Ideal.ofBits_zero_f32]
  simp only [cmpi_eq_one]

/-- The tile's sum of `pred` over bucket `b`. -/
theorem psS_eq (v4 : FVec Ideal S512x2048 .f32) (v11 : IVec S512x2048 32) (b : BitVec 32) :
    psS v4 v11 b = ∑ r : Fin 512, ∑ c : Fin 2048, if v11 (ix2 r c) = b then v4 (ix2 r c) else 0 := by
  unfold psS
  rw [redAll_eq]
  refine Finset.sum_congr rfl fun r _ => Finset.sum_congr rfl fun c _ => ?_
  show (if IntOp.cmpi .eq (v11 (ix2 r c)) b = 1#1 then v4 (ix2 r c) else Ideal.ofBits .f32 0x00000000#32) = _
  rw [Ideal.ofBits_zero_f32]
  simp only [cmpi_eq_one]

/-- The lane indicator: one on lane `k`, zero elsewhere. -/
theorem deltaL_apply (k : BitVec 32) (l : Fin 128) :
    deltaL (F := Ideal) k (ix2 (0 : Fin 1) l) = if BitVec.ofNat 32 l.val = k then (1 : EReal) else 0 := by
  unfold deltaL lanes
  show ((((IntOp.cmpi .eq (iota .tc S1x128 32 [1] iota_S1x128_d1_w32 (ix2 (0 : Fin 1) l)) k).setWidth 32).toInt : ℝ) : EReal) = _
  rw [iota_single_apply]
  show ((((IntOp.cmpi .eq (BitVec.ofNat 32 l.val) k).setWidth 32).toInt : ℝ) : EReal) = _
  by_cases h : BitVec.ofNat 32 l.val = k
  · rw [if_pos h, cmpi_eq_one.mpr h]; norm_num
  · rw [if_neg h]
    have h0 : IntOp.cmpi .eq (BitVec.ofNat 32 l.val) k = 0#1 := by
      rcases (show ∀ x : BitVec 1, x = 0#1 ∨ x = 1#1 by decide) (IntOp.cmpi .eq (BitVec.ofNat 32 l.val) k) with h1 | h1
      · exact h1
      · exact absurd (cmpi_eq_one.mp h1) h
    rw [h0]; norm_num

end AtIdeal

end Cert.KernelIdeal.Body

end
-- ==== Proof.KLanes.lean ====
import proofs.«420969_j46729244180574_2_alg».proof.Proof.KBody

/-!
# The body's accumulating store, read on row 0

On row `0` and lane `l` the store writes what the block held there plus the tile's lane vector at `l`: for `l = b < 5`
the tile's count of bucket `b`, for `l = 5 + b` its sum of `pred` over bucket `b`, for `l = 10` its sum of all of `pred`.
-/

noncomputable section

namespace Cert.KernelIdeal.Body

open Idealize.ShloMosaic Idealize.ShloMosaic.ValueIdx Cert.KernelIdeal Cert.KernelIdeal.Gen Cert.Dice

/-- One on lane `k` of `l`'s lane number, zero elsewhere. -/
def dl (l : Fin 128) (k : BitVec 32) : EReal := if BitVec.ofNat 32 l.val = k then 1 else 0

/-- The lane vector at lane `l`: the chain of its eleven terms. -/
theorem laneVec_apply (v4 : FVec Ideal S512x2048 .f32) (v11 : IVec S512x2048 32) (l : Fin 128) :
    laneVec v4 v11 (ix2 (0 : Fin 1) l)
      = (0 : EReal) + cntS v11 0#32 * dl l 0#32 + psS v4 v11 0#32 * dl l 5#32
          + cntS v11 1#32 * dl l 1#32 + psS v4 v11 1#32 * dl l 6#32
          + cntS v11 2#32 * dl l 2#32 + psS v4 v11 2#32 * dl l 7#32
          + cntS v11 3#32 * dl l 3#32 + psS v4 v11 3#32 * dl l 8#32
          + cntS v11 4#32 * dl l 4#32 + psS v4 v11 4#32 * dl l 9#32
          + redAll v4 * dl l 10#32 := by
  unfold laneVec term dl
  simp only [addf_apply, mulf_apply, broadcast_apply, deltaL_apply]
  show Ideal.ofBits .f32 0x00000000#32 + _ + _ + _ + _ + _ + _ + _ + _ + _ + _ + _ = _
  rw [Ideal.ofBits_zero_f32]

/-- Lane `b < 5` holds the tile's count of bucket `b`. -/
theorem lane_cnt (v4 : FVec Ideal S512x2048 .f32) (v11 : IVec S512x2048 32) (b : Fin 5) :
    laneVec v4 v11 (ix2 (0 : Fin 1) (⟨b.val, by omega⟩ : Fin 128)) = cntS v11 (BitVec.ofNat 32 b.val) := by
  rw [laneVec_apply]
  fin_cases b <;> simp [dl]

/-- Lane `5 + b` holds the tile's sum of `pred` over bucket `b`. -/
theorem lane_ps (v4 : FVec Ideal S512x2048 .f32) (v11 : IVec S512x2048 32) (b : Fin 5) :
    laneVec v4 v11 (ix2 (0 : Fin 1) (⟨5 + b.val, by omega⟩ : Fin 128)) = psS v4 v11 (BitVec.ofNat 32 b.val) := by
  rw [laneVec_apply]
  fin_cases b <;> simp [dl]

/-- Lane `10` holds the tile's sum of all of `pred`. -/
theorem lane_tot (v4 : FVec Ideal S512x2048 .f32) (v11 : IVec S512x2048 32) :
    laneVec v4 v11 (ix2 (0 : Fin 1) (⟨10, by omega⟩ : Fin 128)) = redAll v4 := by
  rw [laneVec_apply]
  simp [dl]

/-- Row `0` is the row the lane vector is laid on. -/
theorem row0_one (l : Fin 128) : k0_pay5 (F := Ideal) (ix2 (0 : Fin 8) l) = 1 := by
  unfold k0_pay5
  show ((((IntOp.cmpi .eq (iota .tc S8x128 32 [0] iota_S8x128_d0_w32 (ix2 (0 : Fin 8) l)) 0#32).setWidth 32).toInt : ℝ) : EReal) = 1
  rw [iota_single_apply]
  show ((((IntOp.cmpi .eq (BitVec.ofNat 32 0) 0#32).setWidth 32).toInt : ℝ) : EReal) = 1
  rw [cmpi_eq_one.mpr rfl]; norm_num

/-- The accumulating store on row `0`: the block's contents there plus the lane vector. -/
theorem payAcc_row0 (x0 : Vec Ideal S1x512x2048 .f32) (x1 x2 : Vec Ideal S1x512x2048 .i32) (xo : Vec Ideal S8x128 .f32)
    (l : Fin 128) :
    payAcc x0 x1 x2 xo (ix2 (0 : Fin 8) l)
      = xo (ix2 (0 : Fin 8) l) + laneVec (k0_pay3 x0) (k0_pay4 x1 x2) (ix2 (0 : Fin 1) l) := by
  rw [payAcc_eq, shapeCast_self, shapeCast_self]
  show xo (ix2 (0 : Fin 8) l) + broadcastTo S8x128 (laneVec (k0_pay3 x0) (k0_pay4 x1 x2)) broadcasts_S1x128_S8x128 (ix2 (0 : Fin 8) l)
      * k0_pay5 (F := Ideal) (ix2 (0 : Fin 8) l) = _
  rw [row0_one, mul_one]
  rw [broadcastTo_apply _ _ _ (ix2 (0 : Fin 1) l) (by
    intro a
    match a with
    | ⟨0, _⟩ => rfl
    | ⟨1, _⟩ => rfl)]

end Cert.KernelIdeal.Body

end
-- ==== Proof.KTail.lean ====
import proofs.«420969_j46729244180574_2_alg».proof.KernelIdeal
import proofs.«420969_j46729244180574_2_alg».proof.Proof.Gen.KernelIdeal
import proofs.«420969_j46729244180574_2_alg».proof.Proof.Spec
import Idealize.ShloMosaic.PureOps.Ideal.Laws
import Idealize.ShloMosaic.Lib.Pipeline.Value
import Idealize.ShloMosaic.Lib.ValueIdxRank1

/-!
# The kernel's host operations after the region, as a function of the region's output array

The region leaves a `128 × 128` array whose row `8 i` holds batch `i`'s partial sums, lane by lane: lanes `0 … 4` the
counts of buckets `0 … 4`, lanes `5 … 9` their sums of `pred`, lane `10` the sum of all of `pred`. The host keeps row `0`
of every block of eight rows, sums each lane over the sixteen batches, recovers the sixth bucket as the total less the
first five, and applies `tailFn`.
-/

noncomputable section

namespace Cert.KernelIdeal.Tail

open Idealize.ShloMosaic Idealize.ShloMosaic.ValueIdx Cert.KernelIdeal Cert.Dice
open Cert.KernelIdeal.Facts₀ Cert.KernelIdeal.Facts

section Defs
variable {F : FTy → Type} [FloatOps F]

/-- Row `0` of each block of eight rows: one row of 128 lanes per batch. -/
def perBatch (A : FVec F S128x128 .f32) : FVec F S16x128 .f32 :=
  shapeCast S16x128
    (extractStridedSlice S16x1x128 ![0, 0, 0] (shapeCast S16x8x128 A shapeCasts_S128x128_S16x8x128)
      slices_S16x8x128_S16x1x128_0_0_0)
    shapeCasts_S16x1x128_S16x128

/-- Lanes `0 … 4` summed over the batches: the first five counts. -/
def countsLo (A : FVec F S128x128 .f32) : FVec F S5 .f32 :=
  Host.reduceAdd (extractStridedSlice S16x5 ![0, 0] (perBatch A) slices_S16x128_S16x5_0_0)
    (constant S_ .f32 0x00000000#32) reducesTo_S16x5_S5_d0 h_S_

/-- Lanes `5 … 9` summed over the batches: the first five sums. -/
def psumsLo (A : FVec F S128x128 .f32) : FVec F S5 .f32 :=
  Host.reduceAdd (extractStridedSlice S16x5 ![0, 5] (perBatch A) slices_S16x128_S16x5_0_5)
    (constant S_ .f32 0x00000000#32) reducesTo_S16x5_S5_d0 h_S_

/-- Lane `10` summed over the batches: the sum of all of `pred`. -/
def totalPs (A : FVec F S128x128 .f32) : FVec F S_ .f32 :=
  Host.reduceAdd
    (shapeCast S16 (extractStridedSlice S16x1 ![0, 10] (perBatch A) slices_S16x128_S16x1_0_10) shapeCasts_S16x1_S16)
    (constant S_ .f32 0x00000000#32) reducesTo_S16_S_d0 h_S_

/-- `16 · 2048 · 2048`, the number of elements. -/
def totalCount : FVec F S_ .f32 :=
  mulf (mulf (constant S_ .f32 0x41800000#32) (constant S_ .f32 0x45000000#32)) (constant S_ .f32 0x45000000#32)

/-- The sixth count: the number of elements less the first five counts. -/
def countLast (A : FVec F S128x128 .f32) : FVec F S_ .f32 :=
  subf totalCount (Host.reduceAdd (countsLo A) (constant S_ .f32 0x00000000#32) reducesTo_S5_S_d0 h_S_)

/-- The sixth sum: the whole sum less the first five sums. -/
def psumLast (A : FVec F S128x128 .f32) : FVec F S_ .f32 :=
  subf (totalPs A) (Host.reduceAdd (psumsLo A) (constant S_ .f32 0x00000000#32) reducesTo_S5_S_d0 h_S_)

/-- The six counts. -/
def countsV (A : FVec F S128x128 .f32) : FVec F S6 .f32 :=
  concatenate S6 0 [⟨S5, countsLo A⟩, ⟨S1, shapeCast S1 (countLast A) shapeCasts_S_S1⟩] concatenates_S5_S1_S6_d0

/-- The six sums. -/
def psumsV (A : FVec F S128x128 .f32) : FVec F S6 .f32 :=
  concatenate S6 0 [⟨S5, psumsLo A⟩, ⟨S1, shapeCast S1 (psumLast A) shapeCasts_S_S1⟩] concatenates_S5_S1_S6_d0

/-- Everything the host does after the region. -/
def hostTail (A : FVec F S128x128 .f32) : FVec F S_ .f32 :=
  tailFn bcast_S_S6 reducesTo_S6_S_d0 h_S_ (countsV A) (psumsV A)

end Defs

/-- Row `8 i` of the array. -/
def row8 (i : Fin 16) : Fin 128 := ⟨8 * i.val, by omega⟩

/-- Lane `k`, `k < 128`. -/
def lane (k : Nat) (h : k < 128 := by omega) : Fin 128 := ⟨k, h⟩

/-! ## The literals as extended reals -/

/-- The pattern `0x41800000` denotes `16`. -/
theorem ofBits_16 : Ideal.ofBits .f32 0x41800000#32 = ((16 : ℝ) : EReal) := by
  simp [Ideal.ofBits, Ideal.ieee, -EReal.coe_mul]; norm_num

/-- The pattern `0x45000000` denotes `2048`. -/
theorem ofBits_2048 : Ideal.ofBits .f32 0x45000000#32 = ((2048 : ℝ) : EReal) := by
  simp [Ideal.ofBits, Ideal.ieee, -EReal.coe_mul]; norm_num

/-! ## Row `0` of each block of eight rows

Row-major, the index `(i, 0, l)` of the `16 × 8 × 128` view is position `(8 i) · 128 + l` of the `128 × 128` array, and
the index `(i, 0, l)` of the `16 × 1 × 128` slice is position `i · 128 + l` of the `16 × 128` result. -/

/-- Batch `i`'s row: row `8 i` of the array. -/
theorem perBatch_apply (A : FVec Ideal S128x128 .f32) (i : Fin 16) (l : Fin 128) :
    perBatch A (ix2 i l) = A (ix2 (row8 i) l) := by
  unfold perBatch
  refine (shapeCast_apply _ _ (ix2 i l) (ix3 i (⟨0, by omega⟩ : Fin 1) l) ?_).trans ?_
  · rw [Shape.rowMajor_val_three, Shape.rowMajor_val_two]
    show (i.val * 1 + 0) * 128 + l.val = i.val * 128 + l.val
    omega
  refine (extractStridedSlice_apply _ _ _ (ix3 i (⟨0, by omega⟩ : Fin 1) l) (ix3 i (⟨0, by omega⟩ : Fin 8) l) ?_).trans ?_
  · intro a
    match a with
    | ⟨0, _⟩ => show i.val = 0 + i.val; omega
    | ⟨1, _⟩ => show 0 = 0 + 0; rfl
    | ⟨2, _⟩ => show l.val = 0 + l.val; omega
  refine shapeCast_apply _ _ (ix3 i (⟨0, by omega⟩ : Fin 8) l) (ix2 (row8 i) l) ?_
  rw [Shape.rowMajor_val_two, Shape.rowMajor_val_three]
  show 8 * i.val * 128 + l.val = (i.val * 8 + 0) * 128 + l.val
  omega

/-! ## The host's sums from a zero initial value, read at an index

At the exact values the host's float sum over one axis is the initial value plus the sum over that axis's coordinates; the
initial value here is the pattern of `+0.0`, the extended real `0`. -/

/-- The sum over the rows of a `16 × 5` array, at lane `b`: the column's sum. -/
theorem reduceRows_apply (x : FVec Ideal S16x5 .f32) (b : Fin 5) :
    Host.reduceAdd (F := Ideal) x (constant (F := Ideal) S_ .f32 0x00000000#32) reducesTo_S16x5_S5_d0 h_S_ (ix1 b)
      = ∑ i : Fin 16, x (ix2 i b) := by
  show Ideal.hostReduceAdd reducesTo_S16x5_S5_d0 x (Ideal.ofBits .f32 0x00000000#32) (ix1 b) = _
  rw [Ideal.hostReduceAdd_single reducesTo_S16x5_S5_d0 (by decide : S16x5.Reduces [0] S5), Ideal.ofBits_zero_f32, zero_add]
  refine Finset.sum_congr rfl fun i _ => congrArg x ?_
  funext a
  match a with
  | ⟨0, _⟩ => rfl
  | ⟨1, _⟩ => rfl

/-- The sum of a vector's entries: into the scalar shape the host's sum runs over every index of its operand, and a
    vector's indices are its coordinate's range. -/
theorem reduceVec_apply {n : Nat} (x : FVec Ideal ⟨1, ![n]⟩ .f32) (h : (⟨1, ![n]⟩ : Shape).ReducesTo [0] S_) (j : S_.Idx) :
    Host.reduceAdd (F := Ideal) x (constant (F := Ideal) S_ .f32 0x00000000#32) h h_S_ j = ∑ k : Fin n, x (ix1 k) := by
  show Ideal.hostReduceAdd h x (Ideal.ofBits .f32 0x00000000#32) j = _
  rw [Ideal.hostReduceAdd_total h (fun b => b.elim0), Ideal.ofBits_zero_f32, zero_add]
  exact (Equiv.sum_comp idxEquiv1.symm x).symm

/-! ## The lanes summed over the batches -/

/-- The first five counts: lane `b` of the rows `8 i`, summed over the batches. -/
theorem countsLo_apply (A : FVec Ideal S128x128 .f32) (b : Fin 5) :
    countsLo A (ix1 b) = ∑ i : Fin 16, A (ix2 (row8 i) (lane b.val)) := by
  unfold countsLo
  rw [reduceRows_apply]
  refine Finset.sum_congr rfl fun i _ => ?_
  refine (extractStridedSlice_apply _ _ _ (ix2 i b) (ix2 i (lane b.val)) ?_).trans (perBatch_apply A i _)
  intro a
  match a with
  | ⟨0, _⟩ => show i.val = 0 + i.val; omega
  | ⟨1, _⟩ => show b.val = 0 + b.val; omega

/-- The first five sums: lane `5 + b` of the rows `8 i`, summed over the batches. -/
theorem psumsLo_apply (A : FVec Ideal S128x128 .f32) (b : Fin 5) :
    psumsLo A (ix1 b) = ∑ i : Fin 16, A (ix2 (row8 i) (lane (5 + b.val))) := by
  unfold psumsLo
  rw [reduceRows_apply]
  refine Finset.sum_congr rfl fun i _ => ?_
  refine (extractStridedSlice_apply _ _ _ (ix2 i b) (ix2 i (lane (5 + b.val))) ?_).trans (perBatch_apply A i _)
  intro a
  match a with
  | ⟨0, _⟩ => show i.val = 0 + i.val; omega
  | ⟨1, _⟩ => show 5 + b.val = 5 + b.val; rfl

/-- The whole sum: lane `10` of the rows `8 i`, summed over the batches. -/
theorem totalPs_apply (A : FVec Ideal S128x128 .f32) (j : S_.Idx) :
    totalPs A j = ∑ i : Fin 16, A (ix2 (row8 i) (lane 10)) := by
  unfold totalPs
  rw [reduceVec_apply]
  refine Finset.sum_congr rfl fun i _ => ?_
  refine (shapeCast_apply _ _ (ix1 i) (ix2 i (⟨0, by omega⟩ : Fin 1)) ?_).trans ?_
  · rw [Shape.rowMajor_val_two, Shape.rowMajor_val_one]
    show i.val * 1 + 0 = i.val
    omega
  refine (extractStridedSlice_apply _ _ _ (ix2 i (⟨0, by omega⟩ : Fin 1)) (ix2 i (lane 10)) ?_).trans (perBatch_apply A i _)
  intro a
  match a with
  | ⟨0, _⟩ => show i.val = 0 + i.val; omega
  | ⟨1, _⟩ => show 10 = 10 + 0; rfl

/-! ## The sixth entries -/

/-- The number of elements, `16 · 2048 · 2048 = 67108864`. -/
theorem totalCount_apply (j : S_.Idx) : totalCount (F := Ideal) j = ((67108864 : ℝ) : EReal) := by
  show Ideal.ofBits .f32 0x41800000#32 * Ideal.ofBits .f32 0x45000000#32 * Ideal.ofBits .f32 0x45000000#32 = _
  rw [ofBits_16, ofBits_2048, ← EReal.coe_mul, ← EReal.coe_mul]
  norm_num

/-- The sixth count: the number of elements less the first five counts. -/
theorem countLast_apply (A : FVec Ideal S128x128 .f32) (j : S_.Idx) :
    countLast A j = ((67108864 : ℝ) : EReal) - ∑ k : Fin 5, ∑ i : Fin 16, A (ix2 (row8 i) (lane k.val)) := by
  unfold countLast
  rw [subf_apply, totalCount_apply, reduceVec_apply]
  exact congrArg _ (Finset.sum_congr rfl fun k _ => countsLo_apply A k)

/-- The sixth sum: the whole sum less the first five sums. -/
theorem psumLast_apply (A : FVec Ideal S128x128 .f32) (j : S_.Idx) :
    psumLast A j = (∑ i : Fin 16, A (ix2 (row8 i) (lane 10)))
      - ∑ k : Fin 5, ∑ i : Fin 16, A (ix2 (row8 i) (lane (5 + k.val))) := by
  unfold psumLast
  rw [subf_apply, totalPs_apply, reduceVec_apply]
  exact congrArg _ (Finset.sum_congr rfl fun k _ => psumsLo_apply A k)

/-- A scalar viewed as a vector of one entry reads the scalar. -/
theorem scalarAsVec_apply (x : FVec Ideal S_ .f32) (u : Fin 1) :
    shapeCast S1 x shapeCasts_S_S1 (ix1 u) = x ix0 := by
  refine shapeCast_apply _ _ (ix1 u) ix0 ?_
  rw [Shape.rowMajor_val_one]
  show (Shape.rowMajorPi _ _).val = u.val
  rw [Shape.rowMajorPi_zero]
  omega

/-! ## The six counts and the six sums

Along the one axis the first five positions fall in the first piece, at the same position, and position `5` falls in the
second piece, at position `0`. -/

/-- The first five counts: lane `b` of the rows `8 i`, summed over the batches. -/
theorem countsV_lo (A : FVec Ideal S128x128 .f32) (b : Fin 5) :
    countsV A (ix1 ⟨b.val, by omega⟩) = ∑ i : Fin 16, A (ix2 (row8 i) (lane b.val)) := by
  unfold countsV
  refine (concatenate_pair_apply_left _ _ _ concatenates_S5_S1_S6_d0 (ix1 ⟨b.val, by omega⟩) rfl (ix1 b) ?_).trans
    (countsLo_apply A b)
  intro c
  match c with
  | ⟨0, _⟩ => rfl

/-- The sixth count: the number of elements less the first five. -/
theorem countsV_last (A : FVec Ideal S128x128 .f32) :
    countsV A (ix1 ⟨5, by omega⟩)
      = ((67108864 : ℝ) : EReal) - ∑ k : Fin 5, ∑ i : Fin 16, A (ix2 (row8 i) (lane k.val)) := by
  unfold countsV
  refine (concatenate_pair_apply_right _ _ _ concatenates_S5_S1_S6_d0 (ix1 ⟨5, by omega⟩) rfl rfl
    (ix1 (⟨0, by omega⟩ : Fin 1)) ?_ ?_).trans ?_
  · intro c hc
    match c with
    | ⟨0, _⟩ => exact absurd rfl hc
  · show 0 + 5 = 5
    rfl
  exact (scalarAsVec_apply _ _).trans (countLast_apply A ix0)

/-- The first five sums: lane `5 + b` of the rows `8 i`, summed over the batches. -/
theorem psumsV_lo (A : FVec Ideal S128x128 .f32) (b : Fin 5) :
    psumsV A (ix1 ⟨b.val, by omega⟩) = ∑ i : Fin 16, A (ix2 (row8 i) (lane (5 + b.val))) := by
  unfold psumsV
  refine (concatenate_pair_apply_left _ _ _ concatenates_S5_S1_S6_d0 (ix1 ⟨b.val, by omega⟩) rfl (ix1 b) ?_).trans
    (psumsLo_apply A b)
  intro c
  match c with
  | ⟨0, _⟩ => rfl

/-- The sixth sum: lane `10` summed over the batches, less the first five sums. -/
theorem psumsV_last (A : FVec Ideal S128x128 .f32) :
    psumsV A (ix1 ⟨5, by omega⟩)
      = (∑ i : Fin 16, A (ix2 (row8 i) (lane 10)))
        - ∑ k : Fin 5, ∑ i : Fin 16, A (ix2 (row8 i) (lane (5 + k.val))) := by
  unfold psumsV
  refine (concatenate_pair_apply_right _ _ _ concatenates_S5_S1_S6_d0 (ix1 ⟨5, by omega⟩) rfl rfl
    (ix1 (⟨0, by omega⟩ : Fin 1)) ?_ ?_).trans ?_
  · intro c hc
    match c with
    | ⟨0, _⟩ => exact absurd rfl hc
  · show 0 + 5 = 5
    rfl
  exact (scalarAsVec_apply _ _).trans (psumLast_apply A ix0)

end Cert.KernelIdeal.Tail

end
-- ==== Proof.KFrame.lean ====
import proofs.«420969_j46729244180574_2_alg».proof.Proof.Gen.KernelIdeal.Frame
import proofs.«420969_j46729244180574_2_alg».proof.Proof.KLanes
import proofs.«420969_j46729244180574_2_alg».proof.Proof.KTail
import Idealize.ShloMosaic.Lib.Pipeline.Value
import Idealize.ShloMosaic.Lib.Tactic

/-!
# The region's output array

The grid has 64 points: point `t` works on batch `t / 4`, tile `t % 4`. At the first tile of a batch the body stores
zero to the output block and then accumulates; at the others it accumulates onto what the point before left. So after
point `t` the block holds, on row 0, the lane vectors of the tiles `0 … t % 4` of batch `t / 4`, summed in order. The
block is written back after the last tile of each batch, to rows `8 (t / 4) … 8 (t / 4) + 7` of the `128 × 128` array.
-/

set_option maxRecDepth 16384

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.KernelIdeal.Body Cert.Dice
open Cert.KernelIdeal.Tail (row8 lane)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At a later tile of a batch the body leaves the block's contents plus the tile's lane vector on row 0. -/
theorem out_B (c : Dev nD) (i : grid0.Coords) (arg2 : Memref sig .tc .vmem S1x512x2048 .f32) (harg2 : arg2.IsWhole) (arg3 : Memref sig .tc .vmem S1x512x2048 .i32) (harg3 : arg3.IsWhole) (arg4 : Memref sig .tc .vmem S1x512x2048 .i32) (harg4 : arg4.IsWhole) (arg5 : Memref sig .tc .vmem S8x128 .f32) (harg5 : arg5.IsWhole) (hc0 : ¬cond0_0 i)
    (x0 : Vec F S1x512x2048 .f32) (x1 : Vec F S1x512x2048 .i32) (x2 : Vec F S1x512x2048 .i32) (xo3 : Vec F S8x128 .f32) :
    out0_B_3 c i arg2 harg2 arg3 harg3 arg4 harg4 arg5 harg5 hc0 x0 x1 x2 xo3 = payAcc x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz2]
  simp only [View.readAt_eq_ld, harg2.read_unread, harg3.read_unread, harg4.read_unread, harg5.read_unread,
    View.ld_unit_zero (S := S8x128) hz2, View.ld_unit_zero (S := S1x512x2048) hz3]
  rfl

/-- At the first tile of a batch the body leaves zero plus the tile's lane vector on row 0. -/
theorem out_A (c : Dev nD) (i : grid0.Coords) (arg2 : Memref sig .tc .vmem S1x512x2048 .f32) (harg2 : arg2.IsWhole) (arg3 : Memref sig .tc .vmem S1x512x2048 .i32) (harg3 : arg3.IsWhole) (arg4 : Memref sig .tc .vmem S1x512x2048 .i32) (harg4 : arg4.IsWhole) (arg5 : Memref sig .tc .vmem S8x128 .f32) (harg5 : arg5.IsWhole) (hc0 : cond0_0 i)
    (x0 : Vec F S1x512x2048 .f32) (x1 : Vec F S1x512x2048 .i32) (x2 : Vec F S1x512x2048 .i32) :
    out0_A_3 c i arg2 harg2 arg3 harg3 arg4 harg4 arg5 harg5 hc0 x0 x1 x2 = payAcc x0 x1 x2 (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread,
    View.ld_unit_zero (S := S8x128) hz2, View.ld_unit_zero (S := S1x512x2048) hz3]
  rfl

/-! ## Where the windows' blocks sit -/

/-- The three input blocks of point `t`, at their literal types. -/
abbrev xb0 (c : Dev nD) (t : Fin cfg0.N) : Vec F S1x512x2048 .f32 := iblk m c 0 t
abbrev xb1 (c : Dev nD) (t : Fin cfg0.N) : Vec F S1x512x2048 .i32 := iblk m c 1 t
abbrev xb2 (c : Dev nD) (t : Fin cfg0.N) : Vec F S1x512x2048 .i32 := iblk m c 2 t

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

/-- Input window 0's block at point `t` is tile `t % 4` of batch `t / 4` of its array. -/
theorem blk0_apply (c : Dev nD) (t : Fin cfg0.N) (r : Fin 512) (cc : Fin 2048) (h4 : t.val / 4 < 16) (h5 : t.val % 4 < 4) :
    (xb0 m c t) (ix3 (0 : Fin 1) r cc)
      = (V m c main_arg0 : Vec F S16x2048x2048 .f32) (ix3 (⟨t.val / 4, h4⟩ : Fin 16) (rowOf ⟨t.val % 4, h5⟩ r) cc) := by
  show iblk m c 0 t _ = _
  unfold iblk
  rw [View.read_apply]
  show V m c main_arg0 _ = _
  refine congrArg (V m c main_arg0) (funext fun a => Fin.ext ?_)
  have h := idx0 t
  match a with
  | ⟨0, _⟩ => show win0_0.index t 0 * 1 + 1 * 0 = t.val / 4; rw [h.1]; omega
  | ⟨1, _⟩ => show win0_0.index t 1 * 512 + 1 * r.val = 512 * (t.val % 4) + r.val; rw [h.2.1]; omega
  | ⟨2, _⟩ => show win0_0.index t 2 * 2048 + 1 * cc.val = cc.val; rw [h.2.2]; omega

theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)

/-- Input window 1's block at point `t` is tile `t % 4` of batch `t / 4` of its array. -/
theorem blk1_apply (c : Dev nD) (t : Fin cfg0.N) (r : Fin 512) (cc : Fin 2048) (h4 : t.val / 4 < 16) (h5 : t.val % 4 < 4) :
    (xb1 m c t) (ix3 (0 : Fin 1) r cc)
      = (V m c main_arg1 : Vec F S16x2048x2048 .i32) (ix3 (⟨t.val / 4, h4⟩ : Fin 16) (rowOf ⟨t.val % 4, h5⟩ r) cc) := by
  show iblk m c 1 t _ = _
  unfold iblk
  rw [View.read_apply]
  show V m c main_arg1 _ = _
  refine congrArg (V m c main_arg1) (funext fun a => Fin.ext ?_)
  have h := idx1 t
  match a with
  | ⟨0, _⟩ => show win0_1.index t 0 * 1 + 1 * 0 = t.val / 4; rw [h.1]; omega
  | ⟨1, _⟩ => show win0_1.index t 1 * 512 + 1 * r.val = 512 * (t.val % 4) + r.val; rw [h.2.1]; omega
  | ⟨2, _⟩ => show win0_1.index t 2 * 2048 + 1 * cc.val = cc.val; rw [h.2.2]; omega

theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)

/-- Input window 2's block at point `t` is tile `t % 4` of batch `t / 4` of its array. -/
theorem blk2_apply (c : Dev nD) (t : Fin cfg0.N) (r : Fin 512) (cc : Fin 2048) (h4 : t.val / 4 < 16) (h5 : t.val % 4 < 4) :
    (xb2 m c t) (ix3 (0 : Fin 1) r cc)
      = (V m c main_arg2 : Vec F S16x2048x2048 .i32) (ix3 (⟨t.val / 4, h4⟩ : Fin 16) (rowOf ⟨t.val % 4, h5⟩ r) cc) := by
  show iblk m c 2 t _ = _
  unfold iblk
  rw [View.read_apply]
  show V m c main_arg2 _ = _
  refine congrArg (V m c main_arg2) (funext fun a => Fin.ext ?_)
  have h := idx2 t
  match a with
  | ⟨0, _⟩ => show win0_2.index t 0 * 1 + 1 * 0 = t.val / 4; rw [h.1]; omega
  | ⟨1, _⟩ => show win0_2.index t 1 * 512 + 1 * r.val = 512 * (t.val % 4) + r.val; rw [h.2.1]; omega
  | ⟨2, _⟩ => show win0_2.index t 2 * 2048 + 1 * cc.val = cc.val; rw [h.2.2]; omega

theorem hN : cfg0.N = 64 := N_0

theorem outsAt0_congr (c : Dev nD) {n n' : ℕ} (e : n = n') (h : n < cfg0.N) (h' : n' < cfg0.N) :
    outsAt0 m c n h = outsAt0 m c n' h' := by
  subst e; rfl

/-! ## The array after the region -/

theorem idx3 : ∀ t : Fin cfg0.N, win0_3.index t (0 : Fin 2) = t.val / 4 ∧ win0_3.index t (1 : Fin 2) = 0
    ∧ win0_3.xsize (grid0.coords t) (0 : Fin 2) = 8 ∧ win0_3.xsize (grid0.coords t) (1 : Fin 2) = 128 :=
  (by decide +kernel : ∀ t : Fin grid0.N, _)

theorem lastPt_lt (r : ℕ) (hr : r < 128) : 4 * (r / 8) + 3 < cfg0.N := by rw [hN]; omega

/-- The array the region leaves: rows `8 i … 8 i + 7` hold what the last tile of batch `i` left in the output block. -/
def G (c : Dev nD) : Vec F S128x128 .f32 := fun idx =>
  outsAt0 m c (4 * ((idx 0).val / 8) + 3) (lastPt_lt _ (idx 0).isLt)
    (ix2 (⟨(idx 0).val % 8, Nat.mod_lt _ (by decide)⟩ : Fin 8) (⟨(idx 1).val, (idx 1).isLt⟩ : Fin 128))

/-- A write-back, at the last tile `t` of a batch, writes the block of `G` it sits on. -/
theorem flushed_eq (c : Dev nD) (t : Fin cfg0.N) (hf : (cfg0.win 3).flush t = true) :
    (dats m 0 c).flushed 3 t = ((cfg0.win 3).blk t).view.read (Elt F) (G m c) := by
  have h3 : t.val % 4 = 3 := (flush0_3 t).mp hf
  have hi := idx3 t
  funext y
  rw [View.read_apply]
  show outsAt0 m c t.val t.isLt ((cfg0.win 3).xinj (grid0.coords t) y) = G m c (((cfg0.win 3).blk t).view.emb y)
  unfold G
  have e0 : ((((cfg0.win 3).blk t).view.emb y) (0 : Fin 2)).val = win0_3.index t 0 * 8 + 1 * (y (0 : Fin 2)).val := rfl
  have e1 : ((((cfg0.win 3).blk t).view.emb y) (1 : Fin 2)).val = win0_3.index t 1 * 128 + 1 * (y (1 : Fin 2)).val := rfl
  have y0 : (y (0 : Fin 2)).val < 8 := lt_of_lt_of_eq (y (0 : Fin 2)).isLt hi.2.2.1
  have ht : t.val < 64 := lt_of_lt_of_eq t.isLt hN
  refine (congrFun (outsAt0_congr m c ?_ _ _) _).trans (congrArg _ ?_)
  · show t.val = 4 * (((((cfg0.win 3).blk t).view.emb y) (0 : Fin 2)).val / 8) + 3
    rw [e0, hi.1]; omega
  · funext a
    apply Fin.ext
    match a with
    | ⟨0, _⟩ =>
      show (y (0 : Fin 2)).val = ((((cfg0.win 3).blk t).view.emb y) (0 : Fin 2)).val % 8
      rw [e0, hi.1]; omega
    | ⟨1, _⟩ =>
      show (y (1 : Fin 2)).val = ((((cfg0.win 3).blk t).view.emb y) (1 : Fin 2)).val
      rw [e1, hi.2.1]; omega

/-- The array after the region is `G`: every row lies in the block its batch's last tile writes back. -/
theorem final (c : Dev nD) : (dats m 0 c).arrAt 3 cfg0.N = G m c := by
  refine (dats m 0 c).arrAt_eq_of_cover 3 (G m c) (flushed_eq m c) (fun i => ?_)
  have hr : (i (0 : Fin 2)).val < 128 := (i (0 : Fin 2)).isLt
  have hl : (i (1 : Fin 2)).val < 128 := (i (1 : Fin 2)).isLt
  have htv : (4 * ((i (0 : Fin 2)).val / 8) + 3) % 4 = 3 := by omega
  refine ⟨⟨4 * ((i (0 : Fin 2)).val / 8) + 3, lastPt_lt _ hr⟩, (flush0_3 _).mpr htv, ?_⟩
  have hi := idx3 ⟨4 * ((i (0 : Fin 2)).val / 8) + 3, lastPt_lt _ hr⟩
  show i ∈ ((View.whole main_v0).slice (win0_3.rect ⟨4 * ((i (0 : Fin 2)).val / 8) + 3, lastPt_lt _ hr⟩)).set
  rw [View.set_slice_whole, Rect.mem_set_unit]
  intro a
  match a with
  | ⟨0, _⟩ =>
    show win0_3.index ⟨4 * ((i (0 : Fin 2)).val / 8) + 3, lastPt_lt _ hr⟩ 0 * 8 ≤ (i (0 : Fin 2)).val
      ∧ (i (0 : Fin 2)).val < win0_3.index ⟨4 * ((i (0 : Fin 2)).val / 8) + 3, lastPt_lt _ hr⟩ 0 * 8
          + win0_3.xsize (grid0.coords ⟨4 * ((i (0 : Fin 2)).val / 8) + 3, lastPt_lt _ hr⟩) 0
    rw [hi.1, hi.2.2.1]
    show (4 * ((i (0 : Fin 2)).val / 8) + 3) / 4 * 8 ≤ _ ∧ _ < (4 * ((i (0 : Fin 2)).val / 8) + 3) / 4 * 8 + 8
    omega
  | ⟨1, _⟩ =>
    show win0_3.index ⟨4 * ((i (0 : Fin 2)).val / 8) + 3, lastPt_lt _ hr⟩ 1 * 128 ≤ (i (1 : Fin 2)).val
      ∧ (i (1 : Fin 2)).val < win0_3.index ⟨4 * ((i (0 : Fin 2)).val / 8) + 3, lastPt_lt _ hr⟩ 1 * 128
          + win0_3.xsize (grid0.coords ⟨4 * ((i (0 : Fin 2)).val / 8) + 3, lastPt_lt _ hr⟩) 1
    rw [hi.2.1, hi.2.2.2]
    omega

/-! ## The tiles' values, at the ideal instance -/

section Values

variable (m : (ℓ : Loc nD τ sig) → Buf (Elt Ideal) ℓ)

/-- The three argument arrays. -/
abbrev X0 (c : Dev nD) : FVec Ideal SIn .f32 := m ((c : Thread nD τ).loc main_arg0)
abbrev X1 (c : Dev nD) : IVec SIn 32 := m ((c : Thread nD τ).loc main_arg1)
abbrev X2 (c : Dev nD) : IVec SIn 32 := m ((c : Thread nD τ).loc main_arg2)

theorem t_div (t : Fin cfg0.N) : t.val / 4 < 16 := by have : t.val < 64 := lt_of_lt_of_eq t.isLt hN; omega
theorem t_mod (t : Fin cfg0.N) : t.val % 4 < 4 := Nat.mod_lt _ (by decide)

/-- The batch and the tile of point `t`. -/
abbrev bOf (t : Fin cfg0.N) : Fin 16 := ⟨t.val / 4, t_div t⟩
abbrev jOf (t : Fin cfg0.N) : Fin 4 := ⟨t.val % 4, t_mod t⟩

/-- The `pred` tile of point `t`. -/
theorem pred_tile (c : Dev nD) (t : Fin cfg0.N) (r : Fin 512) (cc : Fin 2048) :
    k0_pay3 (xb0 m c t) (ix2 r cc) = X0 m c (ix3 (bOf t) (rowOf (jOf t) r) cc) := by
  unfold k0_pay3
  rw [shapeCast_1ab_ab_apply, blk0_apply m c t r cc (t_div t) (t_mod t), V_main_arg0]

/-- The bucket ids of the tile of point `t`. -/
theorem seg_tile (c : Dev nD) (t : Fin cfg0.N) (r : Fin 512) (cc : Fin 2048) :
    k0_pay4 (xb1 m c t) (xb2 m c t) (ix2 r cc)
      = seg (X1 m c) (X2 m c) (ix3 (bOf t) (rowOf (jOf t) r) cc) := by
  unfold k0_pay4 seg
  show IntOp.addi (IntOp.muli (shapeCast S512x2048 (xb1 m c t) shapeCasts_S1x512x2048_S512x2048 (ix2 r cc)) 3#32)
      (shapeCast S512x2048 (xb2 m c t) shapeCasts_S1x512x2048_S512x2048 (ix2 r cc)) = _
  rw [shapeCast_1ab_ab_apply, shapeCast_1ab_ab_apply, blk1_apply m c t r cc (t_div t) (t_mod t),
    blk2_apply m c t r cc (t_div t) (t_mod t), V_main_arg1, V_main_arg2]
  rfl

/-- The tile's count of bucket `b` is the sum of the bucket's indicator over the tile. -/
theorem cnt_tile (c : Dev nD) (t : Fin cfg0.N) (b : BitVec 32) :
    cntS (F := Ideal) (k0_pay4 (xb1 m c t) (xb2 m c t)) b
      = tileSum (ind (X1 m c) (X2 m c) b) (bOf t) (jOf t) := by
  rw [cntS_eq]
  unfold tileSum ind
  refine Finset.sum_congr rfl fun r _ => Finset.sum_congr rfl fun cc _ => ?_
  rw [seg_tile]

/-- The tile's sum of `pred` over bucket `b`. -/
theorem ps_tile (c : Dev nD) (t : Fin cfg0.N) (b : BitVec 32) :
    psS (k0_pay3 (xb0 m c t))
        (k0_pay4 (xb1 m c t) (xb2 m c t)) b
      = tileSum (pick (X0 m c) (X1 m c) (X2 m c) b) (bOf t) (jOf t) := by
  rw [psS_eq]
  unfold tileSum pick
  refine Finset.sum_congr rfl fun r _ => Finset.sum_congr rfl fun cc _ => ?_
  rw [seg_tile, pred_tile]

/-- The tile's sum of all of `pred`. -/
theorem tot_tile (c : Dev nD) (t : Fin cfg0.N) :
    redAll (k0_pay3 (xb0 m c t)) = tileSum (X0 m c) (bOf t) (jOf t) := by
  rw [redAll_eq]
  unfold tileSum
  refine Finset.sum_congr rfl fun r _ => Finset.sum_congr rfl fun cc _ => ?_
  rw [pred_tile]

/-- What point `t` adds on lane `l` of row 0. -/
def tileLane (c : Dev nD) (t : Fin cfg0.N) (l : Fin 128) : EReal :=
  laneVec (k0_pay3 (xb0 m c t))
    (k0_pay4 (xb1 m c t) (xb2 m c t)) (ix2 (0 : Fin 1) l)

/-- The same, for a point given as a natural number (zero past the grid). -/
def tileLaneN (c : Dev nD) (n : ℕ) (l : Fin 128) : EReal := if h : n < cfg0.N then tileLane m c ⟨n, h⟩ l else 0

theorem tileLaneN_of_lt (c : Dev nD) (t : Fin cfg0.N) (l : Fin 128) {n : ℕ} (e : n = t.val) :
    tileLaneN m c n l = tileLane m c t l := by
  subst e
  unfold tileLaneN
  rw [dif_pos t.isLt]

/-- THE ACCUMULATION: after point `n`, lane `l` of row 0 of the output block holds what the tiles `0 … n % 4` of the
    batch `n / 4` added there, in order. -/
theorem acc_eq (c : Dev nD) (l : Fin 128) : ∀ (n : ℕ) (h : n < cfg0.N),
    outsAt0 m c n h (ix2 (0 : Fin 8) l) = ∑ j ∈ Finset.range (n % 4 + 1), tileLaneN m c (4 * (n / 4) + j) l
  | 0, h => by
    rw [outsAt0_A m c ⟨0, h⟩ rfl,
      out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩) (iblk m c 2 ⟨0, h⟩),
      payAcc_row0]
    show Ideal.ofBits .f32 0x00000000#32 + tileLane m c ⟨0, h⟩ l = _
    rw [Ideal.ofBits_zero_f32, zero_add, Finset.sum_range_one, tileLaneN_of_lt m c ⟨0, h⟩ l rfl]
  | n + 1, h => by
    by_cases h0 : (n + 1) % 4 = 0
    · rw [outsAt0_A m c ⟨n + 1, h⟩ h0,
        out_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) ((hcond0_0 ⟨n + 1, h⟩).mpr h0)
          (iblk m c 0 ⟨n + 1, h⟩) (iblk m c 1 ⟨n + 1, h⟩) (iblk m c 2 ⟨n + 1, h⟩),
        payAcc_row0]
      show Ideal.ofBits .f32 0x00000000#32 + tileLane m c ⟨n + 1, h⟩ l = _
      rw [Ideal.ofBits_zero_f32, zero_add, h0, Finset.sum_range_one,
        tileLaneN_of_lt m c ⟨n + 1, h⟩ l (show 4 * ((n + 1) / 4) + 0 = n + 1 by omega)]
    · rw [outsAt0_B m c ⟨n + 1, h⟩ h0,
        out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩)
          (fun hh => h0 ((hcond0_0 ⟨n + 1, h⟩).mp hh))
          (iblk m c 0 ⟨n + 1, h⟩) (iblk m c 1 ⟨n + 1, h⟩) (iblk m c 2 ⟨n + 1, h⟩)
          (outsAt0 m c ((⟨n + 1, h⟩ : Fin cfg0.N).val - 1) (Nat.lt_of_le_of_lt (Nat.sub_le _ _) (⟨n + 1, h⟩ : Fin cfg0.N).isLt)),
        payAcc_row0]
      show outsAt0 m c n _ (ix2 (0 : Fin 8) l) + tileLane m c ⟨n + 1, h⟩ l = _
      rw [acc_eq c l n (Nat.lt_of_succ_lt h)]
      have e1 : n % 4 + 1 = (n + 1) % 4 := by omega
      have e2 : n / 4 = (n + 1) / 4 := by omega
      rw [Finset.sum_range_succ (n := (n + 1) % 4), ← e1, ← e2,
        tileLaneN_of_lt m c ⟨n + 1, h⟩ l (show 4 * (n / 4) + (n % 4 + 1) = n + 1 by omega)]

/-! ## Row `8 i` of the array, lane by lane -/

theorem pt_lt (i : Fin 16) (j : Fin 4) : 4 * i.val + j.val < cfg0.N := by rw [hN]; omega

/-- The point of batch `i`, tile `j`. -/
abbrev ptOf (i : Fin 16) (j : Fin 4) : Fin cfg0.N := ⟨4 * i.val + j.val, pt_lt i j⟩

theorem bOf_ptOf (i : Fin 16) (j : Fin 4) : bOf (ptOf i j) = i := Fin.ext (by show (4 * i.val + j.val) / 4 = i.val; omega)
theorem jOf_ptOf (i : Fin 16) (j : Fin 4) : jOf (ptOf i j) = j := Fin.ext (by show (4 * i.val + j.val) % 4 = j.val; omega)

/-- Row `8 i`, lane `l` of the array: what the four tiles of batch `i` added on lane `l`. -/
theorem row_eq (c : Dev nD) (i : Fin 16) (l : Fin 128) :
    G m c (ix2 (row8 i) l) = ∑ j : Fin 4, tileLane m c (ptOf i j) l := by
  unfold G
  have e : (ix2 (⟨(ix2 (row8 i) l (0 : Fin 2)).val % 8, Nat.mod_lt _ (by decide)⟩ : Fin 8)
      (⟨(ix2 (row8 i) l (1 : Fin 2)).val, (ix2 (row8 i) l (1 : Fin 2)).isLt⟩ : Fin 128)) = ix2 (0 : Fin 8) l := by
    funext a; apply Fin.ext
    match a with
    | ⟨0, _⟩ => show (8 * i.val) % 8 = 0; omega
    | ⟨1, _⟩ => rfl
  rw [e, outsAt0_congr m c (show 4 * ((ix2 (row8 i) l (0 : Fin 2)).val / 8) + 3 = 4 * i.val + 3 by
      show 4 * ((8 * i.val) / 8) + 3 = _; omega) _ (pt_lt i ⟨3, by decide⟩),
    acc_eq m c l (4 * i.val + 3) (pt_lt i ⟨3, by decide⟩)]
  rw [show (4 * i.val + 3) % 4 + 1 = 4 by omega, show (4 * i.val + 3) / 4 = i.val by omega, Finset.sum_range]
  exact Finset.sum_congr rfl fun j _ => tileLaneN_of_lt m c (ptOf i j) l rfl

/-- Lane `b < 5`: batch `i`'s count of bucket `b`. -/
theorem row_cnt (c : Dev nD) (i : Fin 16) (b : Fin 5) :
    G m c (ix2 (row8 i) (lane b.val)) = batchSum (ind (X1 m c) (X2 m c) (BitVec.ofNat 32 b.val)) i := by
  rw [row_eq]
  unfold batchSum
  refine Finset.sum_congr rfl fun j _ => ?_
  unfold tileLane
  rw [show (lane b.val : Fin 128) = ⟨b.val, by omega⟩ from rfl, lane_cnt, cnt_tile, bOf_ptOf, jOf_ptOf]

/-- Lane `5 + b`: batch `i`'s sum of `pred` over bucket `b`. -/
theorem row_ps (c : Dev nD) (i : Fin 16) (b : Fin 5) :
    G m c (ix2 (row8 i) (lane (5 + b.val))) = batchSum (pick (X0 m c) (X1 m c) (X2 m c) (BitVec.ofNat 32 b.val)) i := by
  rw [row_eq]
  unfold batchSum
  refine Finset.sum_congr rfl fun j _ => ?_
  unfold tileLane
  rw [show (lane (5 + b.val) : Fin 128) = ⟨5 + b.val, by omega⟩ from rfl, lane_ps, ps_tile, bOf_ptOf, jOf_ptOf]

/-- Lane `10`: batch `i`'s sum of all of `pred`. -/
theorem row_tot (c : Dev nD) (i : Fin 16) :
    G m c (ix2 (row8 i) (lane 10)) = batchSum (X0 m c) i := by
  rw [row_eq]
  unfold batchSum
  refine Finset.sum_congr rfl fun j _ => ?_
  unfold tileLane
  rw [show (lane 10 : Fin 128) = ⟨10, by omega⟩ from rfl, lane_tot, tot_tile, bOf_ptOf, jOf_ptOf]

end Values

end Cert.KernelIdeal.KV

end
-- ==== Proof.KRun.lean ====
import proofs.«420969_j46729244180574_2_alg».proof.Proof.KFrame
import Idealize.ShloMosaic.Lib.StableHlo.Run

/-!
# The kernel program's run, with its result named

The frame run leaves the region's output array at `G` and every later buffer at what the host operations after the
region compute from it. Those operations, composed, are `hostTail`: so the program's result is `hostTail G`.
-/

set_option maxRecDepth 16384

noncomputable section

open Idealize.ShloMosaic Idealize.ShloMosaic.TcCoe Idealize.SL.Sem Idealize.ShloMosaic.StableHlo
open Idealize.ShloMosaic.Pipeline (Dat)

namespace Cert.KernelIdeal.KV

open Idealize.ShloMosaic.ValueIdx Cert.KernelIdeal Cert.KernelIdeal.Gen Cert.Dice
open Cert.KernelIdeal.Tail

variable {F : FTy → Type} [FloatOps F]
variable (m : (ℓ : Loc nD τ sig) → Buf (Elt F) ℓ) (ρ : Dev nD → PrngReg)

set_option maxHeartbeats 4000000 in
/-- The host operations after the region, run from any buffer contents `W`: the result is `hostTail` of the region's
    output array in `W`. -/
theorem tail_after (W : Valuation τ sig (Elt F)) :
    StableHlo.after (List.flatten [hostOps1, hostOps1_1, hostOps1_2]) W (Proc.devRef .tc main_v34)
      = hostTail (W (Proc.devRef .tc main_v0)) := by
  simp only [hostOps1, hostOps1_1, hostOps1_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold hostTail tailFn invSq countsV psumsV countLast psumLast totalCount totalPs countsLo psumsLo perBatch
  (try simp only [TRef.ofBuf, TRef.toBuf, cast_eq])
  rfl

/-- After the region and the host operations that follow it, the result buffer holds `hostTail G`. -/
theorem tail_eq (c : Dev nD) :
    Pipeline.afterTail₀ cfgs (dats m) 0 (V0 m) [hostOps1, hostOps1_1, hostOps1_2] c main_v34 = hostTail (G m c) := by
  unfold Pipeline.afterTail₀
  refine (tail_after _).trans (congrArg hostTail ?_)
  exact (Pipeline.withArrays_arr spec0 launch0.win.arr_inj c _ _ 3).trans (final m c)

/-- The run, read: the result at `hostTail G`, the three arguments unchanged. -/
theorem run : θ_run defs (onTc (τ := τ) (main (F := F))) ⟨m, fun _ => 0, ρ⟩ fun r => ∀ c : Dev nD,
      r.2.mem ((c : Thread nD τ).loc main_v34) = hostTail (G m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v34 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KV

end
-- ==== Proof.RefValue.lean ====
import proofs.«420969_j46729244180574_2_alg».proof.Proof.RefRead
import proofs.«420969_j46729244180574_2_alg».proof.Proof.Spec
import Idealize.ShloMosaic.PureOps.Ideal.Laws

/-!
# The reference's two bucket vectors

The reference flattens the arrays, and scatters `1` (for the counts) and `pred` (for the sums) with `add` into six
zeros at the flattened bucket ids. At the ideal instance a scatter-add is the exact sum of the updates landing on each
element, so bucket `b` receives exactly the elements `i` with `seg i = b`: the counts are `cnt`, the sums `psum`. What
follows the two scatters is `tailFn` of them.
-/

noncomputable section

namespace Cert.Dice

open Idealize.ShloMosaic Idealize.ShloMosaic.ValueIdx Cert.ReferenceIdeal Cert.ReferenceIdeal.Gen Cert.ReferenceIdeal.RefRead

/-! ## Where one update lands

The scatter writes into a vector of six elements from a flat vector of updates, one index word per update. Its only
operand axis is an inserted window axis, so the window coordinate is `0`; the same axis is the one the index vector
names, so the start is the update's own index word, read signed. -/

/-- The window coordinate is `0`: the operand's one axis is inserted, no update axis goes to it. -/
theorem refScatter_window (j : S67108864.Idx) (a : Fin S6.rank) :
    scatter_S6_S67108864x1_S67108864_n_0_0_1.window j a = 0 := by
  unfold ScatterDims.window
  have ha : a ∉ scatter_S6_S67108864x1_S67108864_n_0_0_1.sKept := by
    have : a = 0 := Subsingleton.elim _ _
    subst this; decide
  rw [dif_neg ha]

/-- The start on the operand's axis is the index word of update `j`, read as a signed integer. -/
theorem refScatter_start (j : S67108864.Idx) (idx : IVec S67108864x1 32) (a : Fin S6.rank) :
    scatter_S6_S67108864x1_S67108864_n_0_0_1.start j idx a
      = (idx (scatter_S6_S67108864x1_S67108864_n_0_0_1.siIdx j ⟨0, by decide⟩)).toInt := by
  unfold ScatterDims.start
  have ha : a ∈ scatter_S6_S67108864x1_S67108864_n_0_0_1.scatterDimsToOperandDims := by
    have : a = 0 := Subsingleton.elim _ _
    subst this; decide
  rw [dif_pos ha]
  have : a = 0 := Subsingleton.elim _ _
  subst this
  rfl

/-- Update `j` reads its index word in row `j` of the index array: the row's coordinate is `j`'s own. -/
theorem refScatter_siIdx (j : S67108864.Idx) (c : Fin scatter_S6_S67108864x1_S67108864_n_0_0_1.scatterDimsToOperandDims.length) :
    idx_main_v7 (scatter_S6_S67108864x1_S67108864_n_0_0_1.siIdx j c) = j := by
  funext a
  have : a = 0 := Subsingleton.elim _ _
  subst this
  apply Fin.ext
  show ((scatter_S6_S67108864x1_S67108864_n_0_0_1.siIdx j c) 0).val = (j 0).val
  unfold ScatterDims.siIdx
  rw [dif_neg (by decide)]
  unfold ScatterDims.siCoord
  rw [Fin.val_cast]
  congr 2

/-- Update `j` lands on element `i` exactly when its index word, read signed, is `i`'s position: a word outside
    `0 … 5` lands nowhere, and every position is below six. -/
theorem refScatter_resultIdx (j : S67108864.Idx) (idx : IVec S67108864x1 32) (i : S6.Idx) :
    scatter_S6_S67108864x1_S67108864_n_0_0_1.resultIdx? j idx = some i
      ↔ (idx (scatter_S6_S67108864x1_S67108864_n_0_0_1.siIdx j ⟨0, by decide⟩)).toInt = ((i 0).val : Int) := by
  have h6 : (i 0).val < 6 := (i 0).isLt
  unfold ScatterDims.resultIdx?
  by_cases h : ∀ a, 0 ≤ scatter_S6_S67108864x1_S67108864_n_0_0_1.start j idx a + scatter_S6_S67108864x1_S67108864_n_0_0_1.window j a
      ∧ scatter_S6_S67108864x1_S67108864_n_0_0_1.start j idx a + scatter_S6_S67108864x1_S67108864_n_0_0_1.window j a < S6.size a
  · rw [dif_pos h]
    have h0 := h 0
    rw [refScatter_start, refScatter_window] at h0
    have h0' : (S6.size 0 : Int) = 6 := rfl
    constructor
    · intro e
      have e1 := congrArg Fin.val (congrFun (Option.some.inj e) 0)
      simp only [refScatter_start, refScatter_window] at e1
      omega
    · intro e
      congr 1; funext a
      have : a = 0 := Subsingleton.elim _ _
      subst this
      apply Fin.ext
      simp only [refScatter_start, refScatter_window]
      omega
  · rw [dif_neg h]
    constructor
    · intro e; cases e
    · intro e
      exfalso; apply h; intro a
      rw [refScatter_start, refScatter_window]
      have : a = 0 := Subsingleton.elim _ _
      subst this
      have h0' : (S6.size 0 : Int) = 6 := rfl
      omega

/-- A 32-bit word read signed is the natural `b < 6` exactly when it is the word of `b`. -/
theorem toInt_eq_bucket (w : BitVec 32) (b : Fin 6) : w.toInt = (b.val : Int) ↔ w = BitVec.ofNat 32 b.val := by
  have hb := b.isLt
  have hw := w.isLt
  rw [BitVec.toInt_eq_toNat_cond]
  constructor
  · intro h
    apply BitVec.eq_of_toNat_eq
    rw [BitVec.toNat_ofNat]
    split at h <;> omega
  · intro h
    subst h
    rw [BitVec.toNat_ofNat]
    split <;> omega

/-! ## The scatter as a sum over the unflattened array

The flat index `j` and the three-axis index `i` match through the reshape, a bijection; the index word of `j` is the
bucket id `seg i` of the matching `i`. So element `b` of the scatter is the operand's element plus the sum, over all
`i` whose bucket is `b`, of the update at the flat index matching `i`. -/

theorem refScatter_read (x : S6.Idx → EReal) (x1 x2 : IVec SIn 32) (upd : S67108864.Idx → EReal) (b : Fin 6) :
    Ideal.hostScatterAdd scatter_S6_S67108864x1_S67108864_n_0_0_1 x (val_main_v7 (F := Ideal) x1 x2) upd (ix1 b)
      = x (ix1 b) + ∑ i : SIn.Idx, if seg x1 x2 i = BitVec.ofNat 32 b.val
          then upd ((Shape.reshapeEquiv shapeCasts_S16x2048x2048_S67108864).symm i) else 0 := by
  unfold Ideal.hostScatterAdd
  refine congrArg (x (ix1 b) + ·) ?_
  rw [Finset.sum_filter]
  refine ((Equiv.sum_comp (Shape.reshapeEquiv shapeCasts_S16x2048x2048_S67108864).symm _).symm.trans ?_)
  refine Finset.sum_congr rfl (fun i _ => ?_)
  refine if_congr ?_ rfl rfl
  rw [refScatter_resultIdx, val_main_v7_apply, refScatter_siIdx]
  have hv : val_main_v3 (F := Ideal) x1 x2 ((Shape.reshapeEquiv shapeCasts_S16x2048x2048_S67108864).symm i) = seg x1 x2 i := by
    show val_main_v2 (F := Ideal) x1 x2 (Shape.reshapeEquiv shapeCasts_S16x2048x2048_S67108864
      ((Shape.reshapeEquiv shapeCasts_S16x2048x2048_S67108864).symm i)) = _
    rw [Equiv.apply_symm_apply]; rfl
  rw [hv]
  exact toInt_eq_bucket _ b

/-- At the ideal instance the host's accumulating scatter is the exact sum of the updates landing on each element. -/
theorem refScatter_ideal (x : FVec Ideal S6 .f32) (idx : IVec S67108864x1 32) (upd : FVec Ideal S67108864 .f32) :
    Host.scatterAdd scatter_S6_S67108864x1_S67108864_n_0_0_1 x idx upd
      = Ideal.hostScatterAdd scatter_S6_S67108864x1_S67108864_n_0_0_1 x idx upd := rfl

/-! ## The two constants -/

/-- The pattern of `+0.0` denotes `0`. -/
theorem ref_ofBits_zero : (FloatOps.ofBits .f32 0x00000000#32 : Ideal .f32) = 0 := by
  show Ideal.ofBits .f32 0x00000000#32 = 0
  simp [Ideal.ofBits, Ideal.ieee]

/-- The pattern of `1.0` denotes `1`. -/
theorem ref_ofBits_one : (FloatOps.ofBits .f32 0x3F800000#32 : Ideal .f32) = 1 := by
  show Ideal.ofBits .f32 0x3F800000#32 = 1
  simp [Ideal.ofBits, Ideal.ieee, -EReal.coe_mul]; norm_num

/-- The reference's counts: bucket `b` holds the number of elements whose bucket id is `b`. -/
theorem ref_counts (x1 x2 : IVec SIn 32) (b : Fin 6) :
    val_main_v8 (F := Ideal) x1 x2 (ix1 b) = cnt x1 x2 (BitVec.ofNat 32 b.val) := by
  unfold val_main_v8
  rw [refScatter_ideal, refScatter_read]
  have h0 : val_main_v6 (F := Ideal) (ix1 b) = 0 := by
    rw [val_main_v6_apply, val_main_cst_0_apply]; exact ref_ofBits_zero
  rw [h0, zero_add]
  unfold cnt
  refine Finset.sum_congr rfl (fun i _ => ?_)
  rw [val_main_v5_apply, val_main_cst_apply, ref_ofBits_one]

/-- The reference's sums: bucket `b` holds the sum of `pred` over the elements whose bucket id is `b`. -/
theorem ref_psums (x0 : FVec Ideal SIn .f32) (x1 x2 : IVec SIn 32) (b : Fin 6) :
    val_main_v11 (F := Ideal) x0 x1 x2 (ix1 b) = psum x0 x1 x2 (BitVec.ofNat 32 b.val) := by
  unfold val_main_v11
  have hidx : val_main_v10 (F := Ideal) x1 x2 = val_main_v7 (F := Ideal) x1 x2 := rfl
  rw [refScatter_ideal, hidx, refScatter_read]
  have h0 : val_main_v9 (F := Ideal) (ix1 b) = 0 := by
    rw [val_main_v9_apply, val_main_cst_1_apply]; exact ref_ofBits_zero
  rw [h0, zero_add]
  unfold psum
  refine Finset.sum_congr rfl (fun i _ => ?_)
  have hx : val_main_v4 (F := Ideal) x0 ((Shape.reshapeEquiv shapeCasts_S16x2048x2048_S67108864).symm i) = x0 i := by
    show x0 (Shape.reshapeEquiv shapeCasts_S16x2048x2048_S67108864
      ((Shape.reshapeEquiv shapeCasts_S16x2048x2048_S67108864).symm i)) = _
    rw [Equiv.apply_symm_apply]
  rw [hx]

/-- After its two scatters the reference computes `tailFn` of them. -/
theorem ref_tail {F : FTy → Type} [FloatOps F] (x0 : FVec F SIn .f32) (x1 x2 : IVec SIn 32) :
    val_main_v25 (F := F) x0 x1 x2
      = tailFn bcast_S_S6 reducesTo_S6_S_d0 h_S_ (val_main_v8 (F := F) x1 x2) (val_main_v11 (F := F) x0 x1 x2) := by
  unfold val_main_v25 val_main_v24 val_main_v23 val_main_v22 val_main_v21 val_main_v20 val_main_v19 val_main_v18
    val_main_v17 val_main_v16 val_main_v15 val_main_v14 val_main_v13 val_main_v12 val_main_call0_v1 val_main_call0_v0
    val_main_cst_2 val_main_cst_3 val_main_cst_4 val_main_cst_5 val_main_cst_6 val_main_cst_7 val_main_cst_8
    tailFn invSq
  rfl

end Cert.Dice

end
-- ==== Proof.Sums.lean ====
import proofs.«420969_j46729244180574_2_alg».proof.Proof.Spec

/-!
# The bucket sums, rearranged

Pure facts about finite sums of extended reals over the `16 × 2048 × 2048` elements: the tile-by-tile order of
summation is the sum over all elements; a class in `{0,1}` and a weight index in `{0,1,2}` give a bucket in `{0,…,5}`;
and, when every element lies in one of the six buckets, the sixth bucket's count and sum are what is left of the
whole after the first five.
-/

noncomputable section

namespace Cert.Dice

open Idealize.ShloMosaic Idealize.ShloMosaic.ValueIdx

/-- A rank-3 index set is the product of its three coordinate ranges. -/
def idxEquiv3 : SIn.Idx ≃ Fin 16 × Fin 2048 × Fin 2048 where
  toFun i := (i 0, i 1, i 2)
  invFun p := ix3 p.1 p.2.1 p.2.2
  left_inv i := (eq_ix3 i).symm
  right_inv _ := rfl

/-- A sum over all elements is the triple sum over the coordinates. -/
theorem sum_idx3 {M : Type*} [AddCommMonoid M] (f : SIn.Idx → M) :
    ∑ i, f i = ∑ a : Fin 16, ∑ b : Fin 2048, ∑ c : Fin 2048, f (ix3 a b c) := by
  rw [← Equiv.sum_comp idxEquiv3.symm f, Fintype.sum_prod_type]
  refine Finset.sum_congr rfl fun a _ => ?_
  rw [Fintype.sum_prod_type]
  rfl

/-- A row is a tile of 512 rows and a row within the tile. -/
def rowEquiv : Fin 4 × Fin 512 ≃ Fin 2048 where
  toFun p := rowOf p.1 p.2
  invFun b := (⟨b.val / 512, by omega⟩, ⟨b.val % 512, by omega⟩)
  left_inv p := by
    obtain ⟨j, r⟩ := p
    ext
    · simp only [rowOf]; omega
    · simp only [rowOf]; omega
  right_inv b := by
    ext
    simp only [rowOf]; omega

/-- A sum over the rows is the sum over the tiles of the sums over each tile's rows. -/
theorem sum_rows {M : Type*} [AddCommMonoid M] (g : Fin 2048 → M) :
    ∑ b, g b = ∑ j : Fin 4, ∑ r : Fin 512, g (rowOf j r) := by
  rw [← Equiv.sum_comp rowEquiv g, Fintype.sum_prod_type]
  rfl

/-- There are `16 · 2048 · 2048` elements. -/
theorem card_idx : Fintype.card SIn.Idx = 67108864 := by
  rw [Fintype.card_congr idxEquiv3, Fintype.card_prod, Fintype.card_prod, Fintype.card_fin, Fintype.card_fin]

/-- The inclusion of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A word below six is one of the six buckets. -/
theorem six_cases (w : BitVec 32) (h : w.toNat < 6) :
    w = 0#32 ∨ w = 1#32 ∨ w = 2#32 ∨ w = 3#32 ∨ w = 4#32 ∨ w = 5#32 := by
  have h0 : ∀ n : Nat, w.toNat = n → w = BitVec.ofNat 32 n := fun n hn => by
    rw [← hn, BitVec.ofNat_toNat, BitVec.setWidth_eq]
  have : w.toNat = 0 ∨ w.toNat = 1 ∨ w.toNat = 2 ∨ w.toNat = 3 ∨ w.toNat = 4 ∨ w.toNat = 5 := by omega
  rcases this with h | h | h | h | h | h
  · exact Or.inl (h0 _ h)
  · exact Or.inr (Or.inl (h0 _ h))
  · exact Or.inr (Or.inr (Or.inl (h0 _ h)))
  · exact Or.inr (Or.inr (Or.inr (Or.inl (h0 _ h))))
  · exact Or.inr (Or.inr (Or.inr (Or.inr (Or.inl (h0 _ h)))))
  · exact Or.inr (Or.inr (Or.inr (Or.inr (Or.inr (h0 _ h)))))

/-- In the reals: with every element in one of the six buckets, the last bucket's sum is the whole sum less the
    first five buckets' sums. -/
theorem real_last (g : SIn.Idx → ℝ) (x1 x2 : IVec SIn 32) (hseg : ∀ i, (seg x1 x2 i).toNat < 6) :
    ∑ i, g i - ∑ k : Fin 5, ∑ i, (if seg x1 x2 i = BitVec.ofNat 32 k.val then g i else 0)
      = ∑ i, if seg x1 x2 i = 5#32 then g i else 0 := by
  rw [Finset.sum_comm, ← Finset.sum_sub_distrib]
  refine Finset.sum_congr rfl fun i _ => ?_
  rcases six_cases _ (hseg i) with h | h | h | h | h | h <;> rw [h] <;> simp [Fin.sum_univ_five]

/-- Summing batch by batch, tile by tile, row by row, lane by lane is summing over all elements. -/
theorem sum_batches (f : SIn.Idx → EReal) : ∑ i : Fin 16, batchSum f i = ∑ idx : SIn.Idx, f idx := by
  rw [sum_idx3]
  refine Finset.sum_congr rfl fun i _ => ?_
  rw [sum_rows]
  rfl

/-- A class in `{0, 1}` and a weight index in `{0, 1, 2}` give a bucket in `{0, …, 5}`. -/
theorem seg_lt (x1 x2 : IVec SIn 32) (i : SIn.Idx) (h1 : x1 i = 0#32 ∨ x1 i = 1#32)
    (h2 : x2 i = 0#32 ∨ x2 i = 1#32 ∨ x2 i = 2#32) : (seg x1 x2 i).toNat < 6 := by
  unfold seg
  rcases h1 with h1 | h1 <;> rcases h2 with h2 | h2 | h2 <;> rw [h1, h2] <;> decide

/-- With every element in one of the six buckets, the count of the last bucket is the number of elements less the
    counts of the first five. -/
theorem cnt_last (x1 x2 : IVec SIn 32) (hseg : ∀ i, (seg x1 x2 i).toNat < 6) :
    ((67108864 : ℝ) : EReal) - ∑ k : Fin 5, cnt x1 x2 (BitVec.ofNat 32 k.val) = cnt x1 x2 5#32 := by
  have hc : ∀ b, cnt x1 x2 b = ((∑ i, if seg x1 x2 i = b then (1 : ℝ) else 0 : ℝ) : EReal) := fun b => by
    rw [cnt, coe_sum]
    refine Finset.sum_congr rfl fun i _ => ?_
    split_ifs <;> simp
  have hcard : (∑ _i : SIn.Idx, (1 : ℝ)) = 67108864 := by
    rw [Finset.sum_const, Finset.card_univ, card_idx]; norm_num
  have hr := real_last (fun _ => (1 : ℝ)) x1 x2 hseg
  rw [hcard] at hr
  simp only [hc]
  rw [← coe_sum, ← EReal.coe_sub, hr]

/-- With every element in one of the six buckets and every value a real number, the last bucket's sum is the whole
    sum less the first five buckets' sums. -/
theorem psum_last (x0 : SIn.Idx → EReal) (x1 x2 : IVec SIn 32) (hseg : ∀ i, (seg x1 x2 i).toNat < 6)
    (hfin : ∀ i, x0 i ≠ ⊤ ∧ x0 i ≠ ⊥) :
    total x0 - ∑ k : Fin 5, psum x0 x1 x2 (BitVec.ofNat 32 k.val) = psum x0 x1 x2 5#32 := by
  have hy : ∀ i, ∃ y : ℝ, x0 i = (y : EReal) := fun i =>
    ⟨(x0 i).toReal, (EReal.coe_toReal (hfin i).1 (hfin i).2).symm⟩
  choose y hy using hy
  have hp : ∀ b, psum x0 x1 x2 b = ((∑ i, if seg x1 x2 i = b then y i else 0 : ℝ) : EReal) := fun b => by
    rw [psum, coe_sum]
    refine Finset.sum_congr rfl fun i _ => ?_
    split_ifs <;> simp [hy]
  have ht : total x0 = ((∑ i, y i : ℝ) : EReal) := by
    rw [total, coe_sum]
    exact Finset.sum_congr rfl fun i _ => hy i
  simp only [hp, ht]
  rw [← coe_sum, ← EReal.coe_sub, real_last y x1 x2 hseg]

end Cert.Dice

end
-- ==== Proof.PreFacts.lean ====
import proofs.«420969_j46729244180574_2_alg».proof.Pre_finite_inputs
import proofs.«420969_j46729244180574_2_alg».proof.Proof.Gen.Pre_finite_inputs
import proofs.«420969_j46729244180574_2_alg».proof.Proof.Spec
import Idealize.ShloMosaic.Lib.ReduceAll
import Idealize.ShloMosaic.Lib.StableHlo.Predicate

/-!
# What the precondition says of each element

The precondition is the conjunction of five `all`s: every `pred` entry has absolute value below `+∞`, every class
is `≥ 0` and `< 2`, every weight index is `≥ 0` and `< 3` (signed 32-bit compares). Element by element: `pred i` is a
real number, `target i ∈ {0, 1}`, `weighted_target i ∈ {0, 1, 2}`.
-/

noncomputable section

namespace Cert.Dice

open Idealize.ShloMosaic Idealize.ShloMosaic.ValueIdx

/-- `|x| < +∞` says `x` is neither infinity. -/
private theorem finite_of_abs_lt_inf (x : Ideal .f32)
    (h : FloatOps.cmpf .olt (FloatOps.hostAbsf x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  simp only [Ideal.cmp, StableHlo.Predicate.ofBool_eq_one_iff, decide_eq_true_eq, max_lt_iff] at h
  refine ⟨fun e => ?_, fun e => ?_⟩
  · rw [e] at h; exact lt_irrefl _ h.1
  · rw [e] at h; simp at h

/-- A word that is `≥ 0` and `< n` as a signed number, `n` small, has a value below `n`. -/
private theorem toNat_lt_of_sge_slt (a : BitVec 32) (n : Nat) (hn : n < 2 ^ 31)
    (h0 : IntOp.cmpi .sge a 0#32 = 1#1) (h1 : IntOp.cmpi .slt a (BitVec.ofNat 32 n) = 1#1) : a.toNat < n := by
  have hn' : (BitVec.ofNat 32 n).toInt = n := StableHlo.Predicate.toInt_ofNat_small n hn
  simp only [IntOp.cmpi, StableHlo.Predicate.ofBool_eq_one_iff, BitVec.sle, BitVec.slt, decide_eq_true_eq] at h0 h1
  rw [hn'] at h1
  have hz : (0#32 : BitVec 32).toInt = 0 := by decide
  rw [hz] at h0
  have := a.isLt
  rw [BitVec.toInt_eq_toNat_cond] at h0 h1
  split at h0 <;> omega

theorem facts_of_pre (x0 : FVec Ideal Cert.Pre_finite_inputs.S16x2048x2048 .f32)
    (x1 x2 : IVec Cert.Pre_finite_inputs.S16x2048x2048 32)
    (h : Cert.Pre_finite_inputs.fn (F := Ideal) x0 x1 x2 = fun _ => 1#1) :
    ∀ i : SIn.Idx, (x0 i ≠ ⊤ ∧ x0 i ≠ ⊥) ∧ (x1 i = 0#32 ∨ x1 i = 1#32) ∧ (x2 i = 0#32 ∨ x2 i = 1#32 ∨ x2 i = 2#32) := by
  intro i
  -- the scalar shape has one index
  haveI : Subsingleton Cert.Pre_finite_inputs.S_.Idx := ⟨fun _ _ => funext fun d => d.elim0⟩
  have h0 := congrFun h ValueIdx.ix0
  dsimp only [Cert.Pre_finite_inputs.fn, Cert.Pre_finite_inputs.fn_part1] at h0
  -- the conjunction of the five `all`s, taken apart
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  -- each `all` at element `i`
  have e1 := Host.reduce_andi_all _ _ _ _ _ h1 i
  have e2 := Host.reduce_andi_all _ _ _ _ _ h2 i
  have e3 := Host.reduce_andi_all _ _ _ _ _ h3 i
  have e4 := Host.reduce_andi_all _ _ _ _ _ h4 i
  have e5 := Host.reduce_andi_all _ _ _ _ _ h5 i
  refine ⟨finite_of_abs_lt_inf (x0 i) e1, ?_, ?_⟩
  · have hlt : (x1 i).toNat < 2 := toNat_lt_of_sge_slt (x1 i) 2 (by norm_num) e2 e3
    have : (x1 i).toNat = 0 ∨ (x1 i).toNat = 1 := by omega
    rcases this with e | e
    · exact Or.inl (BitVec.eq_of_toNat_eq e)
    · exact Or.inr (BitVec.eq_of_toNat_eq e)
  · have hlt : (x2 i).toNat < 3 := toNat_lt_of_sge_slt (x2 i) 3 (by norm_num) e4 e5
    have : (x2 i).toNat = 0 ∨ (x2 i).toNat = 1 ∨ (x2 i).toNat = 2 := by omega
    rcases this with e | e | e
    · exact Or.inl (BitVec.eq_of_toNat_eq e)
    · exact Or.inr (Or.inl (BitVec.eq_of_toNat_eq e))
    · exact Or.inr (Or.inr (BitVec.eq_of_toNat_eq e))

end Cert.Dice

end
-- ==== Proof.Bridge.lean ====
import proofs.«420969_j46729244180574_2_alg».proof.Proof.KFrame
import proofs.«420969_j46729244180574_2_alg».proof.Proof.RefValue
import proofs.«420969_j46729244180574_2_alg».proof.Proof.Sums
import proofs.«420969_j46729244180574_2_alg».proof.Proof.PreFacts

/-!
# The two programs' bucket vectors are the same

The kernel's array gives, on row `8 i`, batch `i`'s counts and sums of the buckets `0 … 4` and its whole sum; the host
sums them over the batches, which is the sum over all elements, and recovers the sixth bucket as what is left. With every
element in one of the six buckets and every `pred` a real number that remainder is the sixth bucket's count and sum. The
reference scatters straight into the six buckets. So the two vectors of counts agree, and the two vectors of sums.
-/

noncomputable section

open Idealize.ShloMosaic Idealize.ShloMosaic.TcCoe Idealize.SL.Sem

namespace Cert.KernelIdeal.KV

open Idealize.ShloMosaic.ValueIdx Cert.KernelIdeal Cert.KernelIdeal.Gen Cert.Dice Cert.KernelIdeal.Tail
open Cert.ReferenceIdeal.RefRead (val_main_v8 val_main_v11)

variable (m : (ℓ : Loc nD τ sig) → Buf (Elt Ideal) ℓ)

/-- The first five counts, summed over the batches: the counts over all elements. -/
theorem counts_lo_eq (c : Dev nD) (b : Fin 5) :
    ∑ i : Fin 16, G m c (ix2 (row8 i) (lane b.val)) = cnt (X1 m c) (X2 m c) (BitVec.ofNat 32 b.val) := by
  rw [cnt_eq, ← sum_batches]
  exact Finset.sum_congr rfl fun i _ => row_cnt m c i b

/-- The first five sums, summed over the batches. -/
theorem psums_lo_eq (c : Dev nD) (b : Fin 5) :
    ∑ i : Fin 16, G m c (ix2 (row8 i) (lane (5 + b.val))) = psum (X0 m c) (X1 m c) (X2 m c) (BitVec.ofNat 32 b.val) := by
  rw [psum_eq, ← sum_batches]
  exact Finset.sum_congr rfl fun i _ => row_ps m c i b

/-- Lane 10 summed over the batches: the sum of all of `pred`. -/
theorem total_eq (c : Dev nD) : ∑ i : Fin 16, G m c (ix2 (row8 i) (lane 10)) = total (X0 m c) := by
  unfold total
  rw [← sum_batches]
  exact Finset.sum_congr rfl fun i _ => row_tot m c i

/-- The six counts the kernel's host computes are the reference's. -/
theorem counts_eq (c : Dev nD) (hseg : ∀ i, (seg (X1 m c) (X2 m c) i).toNat < 6) :
    countsV (G m c) = val_main_v8 (F := Ideal) (X1 m c) (X2 m c) := by
  funext b
  obtain ⟨k, rfl⟩ : ∃ k : Fin 6, b = ix1 k := ⟨b 0, eq_ix1 b⟩
  refine Eq.trans ?_ (ref_counts (X1 m c) (X2 m c) k).symm
  obtain ⟨kv, hkv⟩ := k
  by_cases hk : kv < 5
  · exact (countsV_lo (G m c) ⟨kv, hk⟩).trans (counts_lo_eq m c ⟨kv, hk⟩)
  · obtain rfl : kv = 5 := by omega
    refine (countsV_last (G m c)).trans ?_
    refine Eq.trans ?_ (cnt_last (X1 m c) (X2 m c) hseg)
    exact congrArg (fun s => ((67108864 : ℝ) : EReal) - s) (Finset.sum_congr rfl fun k _ => counts_lo_eq m c k)

/-- The six sums the kernel's host computes are the reference's. -/
theorem psums_eq (c : Dev nD) (hseg : ∀ i, (seg (X1 m c) (X2 m c) i).toNat < 6)
    (hfin : ∀ i, X0 m c i ≠ ⊤ ∧ X0 m c i ≠ ⊥) :
    psumsV (G m c) = val_main_v11 (F := Ideal) (X0 m c) (X1 m c) (X2 m c) := by
  funext b
  obtain ⟨k, rfl⟩ : ∃ k : Fin 6, b = ix1 k := ⟨b 0, eq_ix1 b⟩
  refine Eq.trans ?_ (ref_psums (X0 m c) (X1 m c) (X2 m c) k).symm
  obtain ⟨kv, hkv⟩ := k
  by_cases hk : kv < 5
  · exact (psumsV_lo (G m c) ⟨kv, hk⟩).trans (psums_lo_eq m c ⟨kv, hk⟩)
  · obtain rfl : kv = 5 := by omega
    refine (psumsV_last (G m c)).trans ?_
    refine Eq.trans ?_ (psum_last (X0 m c) (X1 m c) (X2 m c) hseg hfin)
    exact congrArg₂ (fun a s => a - s) (total_eq m c) (Finset.sum_congr rfl fun k _ => psums_lo_eq m c k)

end Cert.KernelIdeal.KV

end
-- ==== Proof.lean ====
/-
  The certificate of the weighted Dice loss kernel against its segmented-sum reference, over the extended reals.

  Both programs bucket every element `i` of `pred`, `target`, `weighted_target` (16 × 2048 × 2048) by
  `seg i = target i · 3 + weighted_target i`, and return `1 − 2 · (∑_b S_b / n_b²) / (∑_b (S_b + n_b) / n_b²)` over the six
  buckets `b = 0 … 5`, with `n_b` the number of elements of bucket `b` and `S_b` the sum of `pred` over it (an empty bucket
  contributes nothing).

  The reference scatters ones and `pred` with `add` into six zeros at the bucket ids: at the ideal instance that is
  exactly `n_b` and `S_b`, an element whose id is not one of `0 … 5` being dropped. The kernel walks the 64 tiles of 512
  rows, for the buckets `0 … 4` sums the indicator and `pred` over each tile, sums all of `pred`, and accumulates the eleven
  numbers per batch on the lanes of row 0 of that batch's output block; the host sums them over the batches and takes
  the sixth bucket as the remainder, `n_5 = 16 · 2048 · 2048 − ∑_{b<5} n_b` and `S_5 = ∑ pred − ∑_{b<5} S_b`. The remainder
  is the sixth bucket exactly when every element lies in one of the six buckets, which the precondition gives: every class
  in `{0, 1}`, every weight index in `{0, 1, 2}`; the subtraction of the sums is cancellation of real numbers, which the
  finiteness of `pred` gives. The order of summation plays no part over the extended reals.

  The frames are the generated ones (the reference's from its run); `preserves` is `True` (the ideal pass rewrote
  nothing); `algebraic` is the kernel's run read as `hostTail G` (KRun), the reference's run read as `tailFn` of its two
  scatters (RefValue), and the equality of the two pairs of bucket vectors (Bridge).
-/
import proofs.«420969_j46729244180574_2_alg».proof.Defs
import proofs.«420969_j46729244180574_2_alg».proof.Proof.Gen.Kernel
import proofs.«420969_j46729244180574_2_alg».proof.Proof.Gen.Kernel.Frame
import proofs.«420969_j46729244180574_2_alg».proof.Proof.Gen.KernelIdeal
import proofs.«420969_j46729244180574_2_alg».proof.Proof.Gen.KernelIdeal.Frame
import proofs.«420969_j46729244180574_2_alg».proof.Proof.Gen.ReferenceIdeal
import proofs.«420969_j46729244180574_2_alg».proof.Proof.Gen.Pre_finite_inputs
import proofs.«420969_j46729244180574_2_alg».proof.Proof.KRun
import proofs.«420969_j46729244180574_2_alg».proof.Proof.Bridge
import Idealize.ShloMosaic.Adequacy
import Idealize.ShloMosaic.Init

noncomputable section

namespace Cert.Proof

open Idealize.ShloMosaic Idealize.ShloMosaic.TcCoe Idealize.SL.Sem
open Cert.Dice Cert.KernelIdeal.KV Cert.KernelIdeal.Tail

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From arguments that agree, the kernel program ends at `hostTail G` and the reference at `tailFn` of its two
    scatters; under the precondition the two pairs of bucket vectors are equal, so the results are. -/
theorem algebraic : Cert.algebraic_KernelIdeal_ReferenceIdeal := by
  intro m ρ m' ρ' hpre hagree
  refine ⟨fun c => hostTail (G m c), Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  have hf := facts_of_pre _ _ _ (hpre c)
  have hseg : ∀ i, (seg (X1 m c) (X2 m c) i).toNat < 6 := fun i => seg_lt _ _ i (hf i).2.1 (hf i).2.2
  have hfin : ∀ i, X0 m c i ≠ ⊤ ∧ X0 m c i ≠ ⊥ := fun i => (hf i).1
  rw [Cert.ReferenceIdeal.RefRead.val_main_v25_eq, (hagree c).1, (hagree c).2.1, (hagree c).2.2]
  refine (ref_tail _ _ _).trans ?_
  show _ = hostTail (G m c)
  unfold hostTail
  rw [counts_eq m c hseg, psums_eq m c hseg hfin]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
